-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S256x8192 : Shape := ⟨2, ![256, 8192]⟩
abbrev S256x1 : Shape := ⟨2, ![256, 1]⟩
abbrev S2048x256 : Shape := ⟨2, ![2048, 256]⟩
abbrev S1x8192 : Shape := ⟨2, ![1, 8192]⟩
abbrev S1x256 : Shape := ⟨2, ![1, 256]⟩
abbrev S1024x1024 : Shape := ⟨2, ![1024, 1024]⟩
abbrev S1024x256 : Shape := ⟨2, ![1024, 256]⟩
abbrev S1024x1 : Shape := ⟨2, ![1024, 1]⟩
abbrev S1x1024 : Shape := ⟨2, ![1, 1024]⟩

abbrev nBuf : Space → Nat
  | .hbm => 9
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192x256, .f32⟩
  | .hbm, ⟨6, _⟩ => ⟨S1x8192, .f32⟩
  | .hbm, ⟨7, _⟩ => ⟨S1x256, .f32⟩
  | .hbm, ⟨8, _⟩ => ⟨S8192x256, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S2048x256, .f32⟩
  | .local _ .vmem, ⟨5, _⟩ => ⟨S2048x256, .f32⟩
  | .local _ .vmem, ⟨6, _⟩ => ⟨S256x256, .f32⟩
  | .local _ .vmem, ⟨7, _⟩ => ⟨S2048x256, .f32⟩
  | .local _ .vmem, ⟨8, _⟩ => ⟨S2048x256, .f32⟩
  | .local _ .vmem, ⟨9, _⟩ => ⟨S1024x1024, .f32⟩
  | .local _ .vmem, ⟨10, _⟩ => ⟨S1024x1024, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1x1024, .f32⟩
  | .local _ .vmem, ⟨16, _⟩ => ⟨S1x1024, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def k2_cond3 (i : grid2.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S8192x1_S1x8192_1_0 : S8192x1.Transposes [1, 0] S1x8192
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S2048x256_S256x256_S2048x256_1_0_0_1_n_n_wf : DotDims.WF S2048x256 S256x256 S2048x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x256.size a
  hwx2_5 : ∀ i : grid2.Coords, EltTy.bits .f32 = 32 ∨ (Rect.block (s := S8192x256) S1024x256.size (cc2_transform_5 i) (hinb2_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond3 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x256, .f32⟩
  | .hbm, ⟨22, _⟩ => ⟨S8192x256, .f32⟩
  | .hbm, ⟨23, _⟩ => ⟨S1x256, .f32⟩
  | .hbm, ⟨24, _⟩ => ⟨S8192x256, .f32⟩
  | .hbm, ⟨25, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Reg0.lean ====
/-
  The first kernel region, the degree vector: at each of its 32 points the body reads a block of 256 whole
  rows of A and writes, for each of them, the inverse square root of the row's sum plus one. Stated at the
  contents `V` the region finds in the core's buffers. The body's one store covers its output block, so
  what the block holds afterwards is the payload of the rows read; the input block is left as found.
  From this: the proof data of the region (entry arrays, what every point leaves in each staging buffer)
  and the obligation that the body, run at any point, does leave that.
-/
import proofs.«116911_j17403207483981_1_alg».proof.Proof.Gen.Kernel.Launch
import proofs.«116911_j17403207483981_1_alg».proof.Proof.Gen.Kernel.Skeleton
import proofs.«116911_j17403207483981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of A are in their staging buffer at every point: the window is fetched at each point, its blocks
    tile the array, and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block, and the whole output block. -/
abbrev rA0 : Rect S256x8192 := Rect.unit (s := S256x8192) ![0, 0] S256x8192.size inb_S256x8192_S256x8192_0_0
abbrev rD0 : Rect S256x1 := Rect.unit (s := S256x1) ![0, 0] S256x1.size inb_S256x1_S256x1_0_0

/-- What the body leaves in the degree block: its one store, the inverse square roots of the row sums plus one. -/
def out0_1 (x0 : Vec F S256x8192 .f32) : Vec F S256x1 .f32 :=
  View.canon [⟨rD0, k0_pay1 (View.ld x0 rA0)⟩]

/-- The store covers the block. -/
theorem cover0_1 (p0 : Vec F S256x1 .f32) (y : S256x1.Idx) :
    ∃ pc ∈ ([⟨rD0, p0⟩] : List (View.Piece (Elt F) S256x1 .f32)), y ∈ pc.1.set :=
  View.cover_of_tiled [⟨rD0, p0⟩] S256x1.size (by rfl) y

set_option maxHeartbeats 1000000 in
/-- The body on whole staging buffers, the rows at contents `x0` and the degree block at anything, runs to the
    end leaving the rows as they were and the degree block at `out0_1 x0`. -/
theorem sound_kernel0 (c : Dev nD) (E : Set ℕ) (i : grid0.Coords) (arg1 : Memref sig .tc .vmem S256x8192 .f32) (harg1 : arg1.IsWhole) (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__d_kernel i arg1 harg1 arg2 harg2) K := by
  simp only [cc0__d_kernel_eq_skeleton]; unfold cc0__d_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`: the arrays as found; after the body at point `t` the rows' buffer at
    its block and the degree buffer at `out0_1` of it; the scratch and the generator register untouched;
    nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Reg1.lean ====
/-
  The second kernel region, S = X W: at each of its 4 points the body reads a block of 2048 whole rows of X and
  the whole of W (the same block at every point) and writes their product, contracted over the input
  features onto a zero accumulator, into the matching 2048 rows of S. Stated at the contents `V` the region
  finds in the core's buffers. The one store covers the output block; both inputs are left as found.
-/
import proofs.«116911_j17403207483981_1_alg».proof.Proof.Gen.Kernel.Launch
import proofs.«116911_j17403207483981_1_alg».proof.Proof.Gen.Kernel.Skeleton
import proofs.«116911_j17403207483981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of X are in their staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- W is in its staging buffer at every point: fetched at the first, its block index never moves after. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole blocks of X, of W and of S. -/
abbrev rX1 : Rect S2048x256 := Rect.unit (s := S2048x256) ![0, 0] S2048x256.size inb_S2048x256_S2048x256_0_0
abbrev rW1 : Rect S256x256 := Rect.unit (s := S256x256) ![0, 0] S256x256.size inb_S256x256_S256x256_0_0

/-- What the body leaves in the block of S: its one store, the product of the two blocks read. -/
def out1_2 (x0 : Vec F S2048x256 .f32) (x1 : Vec F S256x256 .f32) : Vec F S2048x256 .f32 :=
  View.canon [⟨rX1, k1_pay1 (View.ld x0 rX1) (View.ld x1 rW1)⟩]

/-- The store covers the block. -/
theorem cover1_2 (p0 : Vec F S2048x256 .f32) (y : S2048x256.Idx) :
    ∃ pc ∈ ([⟨rX1, p0⟩] : List (View.Piece (Elt F) S2048x256 .f32)), y ∈ pc.1.set :=
  View.cover_of_tiled [⟨rX1, p0⟩] S2048x256.size (by rfl) y

set_option maxHeartbeats 1000000 in
/-- The body on whole staging buffers, X's rows at `x0`, W at `x1` and the block of S at anything, runs to the end
    leaving the inputs as they were and the block of S at `out1_2 x0 x1`. -/
theorem sound_kernel1 (c : Dev nD) (E : Set ℕ) (i : grid1.Coords) (arg1 : Memref sig .tc .vmem S2048x256 .f32) (harg1 : arg1.IsWhole) (arg2 : Memref sig .tc .vmem S256x256 .f32) (harg2 : arg2.IsWhole) (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__support_kernel i arg1 harg1 arg2 harg2 arg3 harg3) K := by
  simp only [cc1__support_kernel_eq_skeleton]; unfold cc1__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as found; after the body at point `t` each input's buffer at
    its block and the buffer of S at `out1_2` of them; the scratch and the generator register untouched;
    nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Reg2Defs.lean ====
/-
  The third kernel region, the normalised contraction, on its 8 × 8 grid of (row tile i, column tile k): what its
  body does at a point, as functions of the blocks it reads. The body keeps a 1024 × 256 accumulator in scratch
  across the column tiles of a row tile: it is set to zero when k = 0, takes the product of the scaled block
  ((d_row ⊙ A_ik) ⊙ d_col) with the block S_k at every point, takes the diagonal term (d_row ⊙ d_row) ⊙ S_k
  when k = i, and when k = 7 is written, plus the bias row, to the output block. Every store is of a whole
  block, so the accumulator after the body is the last value stored and every later load in the body reads
  the value stored before it. The three conditions are scalar tests on the grid coordinates; over the 64
  points they are decided in closed form on the point's number t = 8 i + k.
-/
import proofs.«116911_j17403207483981_1_alg».proof.Proof.Gen.Kernel.Launch
import proofs.«116911_j17403207483981_1_alg».proof.Proof.Gen.Kernel.Skeleton
import proofs.«116911_j17403207483981_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions -/

/-- "This is the first column tile" (k = 0): the accumulator is reset. -/
abbrev cond2_1 (i : grid2.Coords) : Prop :=
  (Scalar.cmpi .ne (Scalar.extui (Scalar.cmpi .eq (BitVec.ofNat 32 (i 1).val) 0#32)) 0#32) = 1#1
/-- "This is the diagonal tile" (i = k): the identity's share is added. -/
abbrev cond2_2 (i : grid2.Coords) : Prop :=
  (Scalar.cmpi .ne (Scalar.extui (Scalar.cmpi .eq (BitVec.ofNat 32 (i 0).val) (BitVec.ofNat 32 (i 1).val))) 0#32) = 1#1
/-- "This is the last column tile" (k = 7): the output block is written. -/
abbrev cond2_3 (i : grid2.Coords) : Prop := k2_cond3 i = 1#1

instance (i : grid2.Coords) : Decidable (cond2_1 i) := inferInstanceAs (Decidable (_ = _))
instance (i : grid2.Coords) : Decidable (cond2_2 i) := inferInstanceAs (Decidable (_ = _))
instance (i : grid2.Coords) : Decidable (cond2_3 i) := inferInstanceAs (Decidable (_ = _))

theorem hcond2_1 : ∀ t : Fin cfg2.N, cond2_1 (grid2.coords t) ↔ t.val % 8 = 0 :=
  (by decide +kernel : ∀ t : Fin grid2.N, cond2_1 (grid2.coords t) ↔ t.val % 8 = 0)
theorem hcond2_2 : ∀ t : Fin cfg2.N, cond2_2 (grid2.coords t) ↔ t.val % 9 = 0 :=
  (by decide +kernel : ∀ t : Fin grid2.N, cond2_2 (grid2.coords t) ↔ t.val % 9 = 0)
theorem hcond2_3 : ∀ t : Fin cfg2.N, cond2_3 (grid2.coords t) ↔ t.val % 8 = 7 :=
  (by decide +kernel : ∀ t : Fin grid2.N, cond2_3 (grid2.coords t) ↔ t.val % 8 = 7)

/-- The point's coordinates: row tile and column tile. -/
theorem coords2_0 : ∀ t : Fin cfg2.N, ((grid2.coords t) 0).val = t.val / 8 :=
  (by decide +kernel : ∀ t : Fin grid2.N, ((grid2.coords t) 0).val = t.val / 8)
theorem coords2_1 : ∀ t : Fin cfg2.N, ((grid2.coords t) 1).val = t.val % 8 :=
  (by decide +kernel : ∀ t : Fin grid2.N, ((grid2.coords t) 1).val = t.val % 8)

/-! ## Where the windows are idle -/

theorem liveAt2_0 : ∀ i, cfg2.idle 0 i = false := fun _ => rfl
theorem liveAt2_1 : ∀ i, cfg2.idle 1 i = false := fun _ => rfl
theorem liveAt2_2 : ∀ i, cfg2.idle 2 i = false := fun _ => rfl
theorem liveAt2_3 : ∀ i, cfg2.idle 3 i = false := fun _ => rfl
theorem liveAt2_4 : ∀ i, cfg2.idle 4 i = false := fun _ => rfl
/-- The output window is idle exactly off the last column tile, and not written back there. -/
theorem idleAt2_5 : ∀ t : Fin cfg2.N, ¬cond2_3 (grid2.coords t) → cfg2.idle 5 (grid2.coords t) = true := by decide +kernel
theorem noFlush2_5 : ∀ t : Fin cfg2.N, ¬cond2_3 (grid2.coords t) → (cfg2.win 5).flush t = false := by decide +kernel
theorem liveAt2_5 : ∀ t : Fin cfg2.N, cond2_3 (grid2.coords t) → cfg2.idle 5 (grid2.coords t) = false := by decide +kernel

/-! ## The staging buffers at a point, and the scratch -/

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x256 .f32 := win2_5.stage (cfg2.slots t 5)
abbrev hs2_5 (t : Fin cfg2.N) : (ms2_5 t).IsWhole := hstage2_5 ((cfg2.slots t 5).cast nbuf2_5)
/-- The accumulator: a whole scoped buffer of the kernel's own. -/
abbrev scM2 : Memref sig .tc .vmem S1024x256 .f32 := Memref.whole cc2_scratch0

/-- The region's resting invariant with the accumulator named as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2 fullShare d)) ∗ (∃ r, prngReg c r)) := by
  unfold Pipeline.ΦA; rw [scopedRest2_eq]; simp only [scM2, owns_whole]; try rfl

/-! ## What the body leaves -/

/-- The accumulator after the body, from the blocks read (`x0` the block of A, `x1` the block of S, `x2` the
    column of row factors, `x3` the row of column factors) and what the point before left (`xs`). -/
def scrNext (i : grid2.Coords) (x0 : Vec F S1024x1024 .f32) (x1 : Vec F S1024x256 .f32) (x2 : Vec F S1024x1 .f32)
    (x3 : Vec F S1x1024 .f32) (xs : Vec F S1024x256 .f32) : Vec F S1024x256 .f32 :=
  let s0 : Vec F S1024x256 .f32 := if cond2_1 i then k2_pay1 (F := F) else xs
  let s1 : Vec F S1024x256 .f32 := k2_pay3 x0 x2 x3 x1 s0
  if cond2_2 i then k2_pay4 x2 s1 x1 else s1

/-- The output block after the body: on the last column tile the accumulator plus the bias row `x4`; elsewhere
    as found (`xo`). -/
def outNext (i : grid2.Coords) (x0 : Vec F S1024x1024 .f32) (x1 : Vec F S1024x256 .f32) (x2 : Vec F S1024x1 .f32)
    (x3 : Vec F S1x1024 .f32) (x4 : Vec F S1x256 .f32) (xs xo : Vec F S1024x256 .f32) : Vec F S1024x256 .f32 :=
  if cond2_3 i then k2_pay5 (scrNext i x0 x1 x2 x3 xs) x4 else xo

end Cert.Kernel.Hand

end
-- ==== Proof.K.Reg2Body.lean ====
/-
  The third region's body as one triple: on whole staging buffers holding the blocks `x0` … `x4`, the output
  buffer at `xo` and the accumulator at `xs`, the body runs to the end leaving the inputs as they were, the
  accumulator at `scrNext` and the output buffer at `outNext`. The body branches three times on the point's
  coordinates, so the triple is proved once per truth assignment of the three conditions; in each the
  executor decides the branches from the assignment, and what the stores leave is read back: every store is
  of the whole block, so the buffer ends at the last value stored and a load after a store reads that value.
-/
import proofs.«116911_j17403207483981_1_alg».proof.Proof.K.Reg2Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of the accumulator (and of the output, and of S): the rectangle every access of them uses. -/
abbrev rS2 : Rect S1024x256 := Rect.unit (s := S1024x256) ![0, 0] S1024x256.size inb_S1024x256_S1024x256_0_0

/-! ## Whole-block stores and loads

Every access of the body is through the rectangle of a whole block at zero offsets. Such a rectangle holds every
index, so after any list of stores whose last is through it the buffer reads as that store's value, a load
through it after such a list reads that value too, and a load through it of a buffer no store has touched
reads the buffer's contents. -/

section whole
variable {Val : EltTy → Type} [∀ e, Nonempty (Val e)] {S : Shape} {e : EltTy}
variable {sg : RefSig} {κ : Kind} {sp : Space}

/-- The offsets of a whole block of a rank-two buffer are zero. -/
private theorem hz2 : (![0, 0] : Fin 2 → ℕ) = fun _ => 0 := funext fun a => by fin_cases a <;> rfl

/-- After a list of stores whose last is of the whole block, the buffer reads as that store's value. -/
private theorem read_writes_whole_cons (v : View sg κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero hz inb y⟩),
    View.canon_cons_unit_zero hz inb]

/-- A load of the whole block after such a list of stores reads the last store's value. -/
private theorem readCov_whole_cons (v : View sg κ sp S e) {off : Fin S.rank → ℕ}
    (hz : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero hz inb y⟩),
    View.canon_cons_unit_zero hz inb, View.ld_unit_zero hz inb]

/-- A load of the whole block of a buffer no store has touched reads its contents. -/
private theorem readAt_whole (v : View sg κ sp S e) (f : v.ty.Contents Val) {off : Fin S.rank → ℕ}
    (hz : off = fun _ => 0) (inb : ∀ a, off a + S.size a ≤ S.size a) :
    v.readAt Val (Rect.unit off S.size inb).toLoadRect f = v.read Val f := by
  rw [View.readAt_eq_ld, View.ld_unit_zero hz inb]

end whole

/-! ## The triple, case by case

In each case the executor runs the body with the three branches decided by the case's assumptions; the inputs'
buffers are untouched, and the output's and the accumulator's contents are the stores' list read back. -/

set_option maxHeartbeats 4000000 in
/-- First column tile, on the diagonal, last column tile: reset, product, diagonal term, output. -/
private theorem sound_kernel2_TTT (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : cond2_1 i) (h2 : cond2_2 i) (h3 : cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_pos h1, if_pos h2, if_pos h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_pos h1, if_pos h2]

set_option maxHeartbeats 4000000 in
/-- First column tile, on the diagonal, not the last: reset, product, diagonal term. -/
private theorem sound_kernel2_TTF (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : cond2_1 i) (h2 : cond2_2 i) (h3 : ¬cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_pos h1, if_pos h2, if_neg h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_pos h1, if_pos h2]

set_option maxHeartbeats 4000000 in
/-- First column tile, off the diagonal, last column tile: reset, product, output. -/
private theorem sound_kernel2_TFT (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : cond2_1 i) (h2 : ¬cond2_2 i) (h3 : cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_pos h1, if_neg h2, if_pos h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_pos h1, if_neg h2]

set_option maxHeartbeats 4000000 in
/-- First column tile, off the diagonal, not the last: reset, product. -/
private theorem sound_kernel2_TFF (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : cond2_1 i) (h2 : ¬cond2_2 i) (h3 : ¬cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_pos h1, if_neg h2, if_neg h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_pos h1, if_neg h2]

set_option maxHeartbeats 4000000 in
/-- A later column tile, on the diagonal, the last: product, diagonal term, output. -/
private theorem sound_kernel2_FTT (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : ¬cond2_1 i) (h2 : cond2_2 i) (h3 : cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_neg h1, if_pos h2, if_pos h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_neg h1, if_pos h2]

set_option maxHeartbeats 4000000 in
/-- A later column tile, on the diagonal, not the last: product, diagonal term. -/
private theorem sound_kernel2_FTF (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : ¬cond2_1 i) (h2 : cond2_2 i) (h3 : ¬cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_neg h1, if_pos h2, if_neg h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_neg h1, if_pos h2]

set_option maxHeartbeats 4000000 in
/-- A later column tile, off the diagonal, the last: product, output. -/
private theorem sound_kernel2_FFT (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : ¬cond2_1 i) (h2 : ¬cond2_2 i) (h3 : cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_neg h1, if_neg h2, if_pos h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_neg h1, if_neg h2]

set_option maxHeartbeats 4000000 in
/-- A later column tile, off the diagonal, not the last: product alone. -/
private theorem sound_kernel2_FFF (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : ¬cond2_1 i) (h2 : ¬cond2_2 i) (h3 : ¬cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_neg h1, if_neg h2, if_neg h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_neg h1, if_neg h2]

/-- The body's triple. -/
theorem sound_kernel2 (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  by_cases h1 : cond2_1 i
  · by_cases h2 : cond2_2 i
    · by_cases h3 : cond2_3 i
      · exact sound_kernel2_TTT c E i arg2 harg2 arg3 harg3 arg4 harg4 arg5 harg5 arg6 harg6 arg7 harg7 arg8 harg8 h1 h2 h3 x0 x1 x2 x3 x4 xs xo K
      · exact sound_kernel2_TTF c E i arg2 harg2 arg3 harg3 arg4 harg4 arg5 harg5 arg6 harg6 arg7 harg7 arg8 harg8 h1 h2 h3 x0 x1 x2 x3 x4 xs xo K
    · by_cases h3 : cond2_3 i
      · exact sound_kernel2_TFT c E i arg2 harg2 arg3 harg3 arg4 harg4 arg5 harg5 arg6 harg6 arg7 harg7 arg8 harg8 h1 h2 h3 x0 x1 x2 x3 x4 xs xo K
      · exact sound_kernel2_TFF c E i arg2 harg2 arg3 harg3 arg4 harg4 arg5 harg5 arg6 harg6 arg7 harg7 arg8 harg8 h1 h2 h3 x0 x1 x2 x3 x4 xs xo K
  · by_cases h2 : cond2_2 i
    · by_cases h3 : cond2_3 i
      · exact sound_kernel2_FTT c E i arg2 harg2 arg3 harg3 arg4 harg4 arg5 harg5 arg6 harg6 arg7 harg7 arg8 harg8 h1 h2 h3 x0 x1 x2 x3 x4 xs xo K
      · exact sound_kernel2_FTF c E i arg2 harg2 arg3 harg3 arg4 harg4 arg5 harg5 arg6 harg6 arg7 harg7 arg8 harg8 h1 h2 h3 x0 x1 x2 x3 x4 xs xo K
    · by_cases h3 : cond2_3 i
      · exact sound_kernel2_FFT c E i arg2 harg2 arg3 harg3 arg4 harg4 arg5 harg5 arg6 harg6 arg7 harg7 arg8 harg8 h1 h2 h3 x0 x1 x2 x3 x4 xs xo K
      · exact sound_kernel2_FFF c E i arg2 harg2 arg3 harg3 arg4 harg4 arg5 harg5 arg6 harg6 arg7 harg7 arg8 harg8 h1 h2 h3 x0 x1 x2 x3 x4 xs xo K

end Cert.Kernel.Hand

end
-- ==== Proof.K.Reg2Dat.lean ====
/-
  The third region's proof data. The accumulator the body carries in scratch is tracked point by point:
  `scrAt n` is what it holds after point n, the body's step `scrNext` applied to the point's blocks and to
  `scrAt (n - 1)` (at the first point to anything: the step resets there). The region's invariant before a
  point is the resting one with the accumulator at that value (before the first point: at anything). The five
  input windows are left as found, so each is at its block at every point whether fetched there or not; the
  output window is written only on the last column tile of a row tile, and elsewhere handed back untouched.
-/
import proofs.«116911_j17403207483981_1_alg».proof.Proof.K.Reg2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of A, of S, the row factors, the column factors and the bias row at point `t`, at their literal types. -/
abbrev blkA (c : Dev nD) (t : Fin cfg2.N) : Vec F S1024x1024 .f32 := iblk2 V c 0 t
abbrev blkS (c : Dev nD) (t : Fin cfg2.N) : Vec F S1024x256 .f32 := iblk2 V c 1 t
abbrev blkDr (c : Dev nD) (t : Fin cfg2.N) : Vec F S1024x1 .f32 := iblk2 V c 2 t
abbrev blkDc (c : Dev nD) (t : Fin cfg2.N) : Vec F S1x1024 .f32 := iblk2 V c 3 t
abbrev blkB (c : Dev nD) (t : Fin cfg2.N) : Vec F S1x256 .f32 := iblk2 V c 4 t

/-- The step at a point where the accumulator is reset does not depend on what it held. -/
theorem scrNext_reset (i : grid2.Coords) (h : cond2_1 i) (x0 : Vec F S1024x1024 .f32) (x1 : Vec F S1024x256 .f32) (x2 : Vec F S1024x1 .f32)
    (x3 : Vec F S1x1024 .f32) (xs xs' : Vec F S1024x256 .f32) : scrNext i x0 x1 x2 x3 xs = scrNext i x0 x1 x2 x3 xs' := by
  unfold scrNext; simp only [if_pos h]

/-- What the accumulator holds after point `n`. -/
def scrAt (c : Dev nD) : (n : ℕ) → n < cfg2.N → Vec F S1024x256 .f32
  | 0, hn => scrNext (grid2.coords ⟨0, hn⟩) (blkA V c ⟨0, hn⟩) (blkS V c ⟨0, hn⟩) (blkDr V c ⟨0, hn⟩) (blkDc V c ⟨0, hn⟩) (k2_pay1 (F := F))
  | n + 1, hn => scrNext (grid2.coords ⟨n + 1, hn⟩) (blkA V c ⟨n + 1, hn⟩) (blkS V c ⟨n + 1, hn⟩) (blkDr V c ⟨n + 1, hn⟩) (blkDc V c ⟨n + 1, hn⟩)
      (scrAt c n (Nat.lt_of_succ_lt hn))

theorem scrAt_zero (c : Dev nD) (t : Fin cfg2.N) (h : t.val = 0) (xs : Vec F S1024x256 .f32) :
    scrAt V c t.val t.isLt = scrNext (grid2.coords t) (blkA V c t) (blkS V c t) (blkDr V c t) (blkDc V c t) xs := by
  obtain ⟨n, hn⟩ := t
  cases n with
  | zero => exact scrNext_reset _ ((hcond2_1 ⟨0, hn⟩).mpr (Nat.zero_mod _)) _ _ _ _ _ _
  | succ n => exact absurd h (Nat.succ_ne_zero n)

theorem scrAt_pos (c : Dev nD) (t : Fin cfg2.N) (h : t.val ≠ 0) :
    scrAt V c t.val t.isLt = scrNext (grid2.coords t) (blkA V c t) (blkS V c t) (blkDr V c t) (blkDc V c t)
      (scrAt V c (t.val - 1) (Nat.lt_of_le_of_lt (Nat.sub_le _ _) t.isLt)) := by
  obtain ⟨n, hn⟩ := t
  cases n with
  | zero => exact absurd rfl h
  | succ n => rfl

/-- The core's scoped buffers other than this region's staging buffers, with the accumulator at `X`. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ X)

theorem PhiA2_rest (c : Dev nD) :
    (Pipeline.ΦA spec2 c : sProp 𝕄) = iprop(restWith c (iprop(∃ d, owns (c : Thread nD τ) scM2 fullShare d)) ∗ (∃ r, prngReg c r)) := by
  rw [PhiA2_eq]; rfl

/-- The region's invariant before position `n`: before the first point the resting one; afterwards the same with the
    accumulator at what the point before left. -/
def PhiS (c : Dev nD) : (n : ℕ) → n ≤ cfg2.N → sProp 𝕄
  | 0, _ => Pipeline.ΦA spec2 c
  | n + 1, hn => iprop(restWith c (owns (c : Thread nD τ) scM2 fullShare (scrAt V c n hn)) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(restWith c (owns (c : Thread nD τ) scM2 fullShare (scrAt V c n hn)) ∗ (∃ r, prngReg c r)) := rfl
theorem PhiS_pos (c : Dev nD) (n : ℕ) (h : n ≤ cfg2.N) (hz : n ≠ 0) :
    PhiS V c n h = iprop(restWith c (owns (c : Thread nD τ) scM2 fullShare (scrAt V c (n - 1) (by omega))) ∗ (∃ r, prngReg c r)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay5 (scrAt V c t.val t.isLt) (blkB V c t)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay5 (scrAt V c t.val t.isLt) (blkB V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 (grid2.coords t)], after2_0]
  rw [show (dat2 V c).leavesExact 1 t = owns (c : Thread nD τ) (ms2_1 t) fullShare ((dat2 V c).after 1 t) from by
    unfold Dat.leavesExact; rw [liveAt2_1 (grid2.coords t)], after2_1]
  rw [show (dat2 V c).leavesExact 2 t = owns (c : Thread nD τ) (ms2_2 t) fullShare ((dat2 V c).after 2 t) from by
    unfold Dat.leavesExact; rw [liveAt2_2 (grid2.coords t)], after2_2]
  rw [show (dat2 V c).leavesExact 3 t = owns (c : Thread nD τ) (ms2_3 t) fullShare ((dat2 V c).after 3 t) from by
    unfold Dat.leavesExact; rw [liveAt2_3 (grid2.coords t)], after2_3]
  rw [show (dat2 V c).leavesExact 4 t = owns (c : Thread nD τ) (ms2_4 t) fullShare ((dat2 V c).after 4 t) from by
    unfold Dat.leavesExact; rw [liveAt2_4 (grid2.coords t)], after2_4]
  -- the accumulator after this point is the step applied to whatever the invariant hands over
  have hstep : ∀ xs : Vec F S1024x256 .f32,
      (t.val = 0 ∨ xs = scrAt V c (t.val - 1) (Nat.lt_of_le_of_lt (Nat.sub_le _ _) t.isLt)) →
      scrNext (grid2.coords t) (blkA V c t) (blkS V c t) (blkDr V c t) (blkDc V c t) xs = scrAt V c t.val t.isLt := by
    intro xs h
    by_cases hz : t.val = 0
    · exact (scrAt_zero V c t hz xs).symm
    · rcases h with h | h
      · exact absurd h hz
      · rw [h]; exact (scrAt_pos V c t hz).symm
  by_cases h3 : cond2_3 (grid2.coords t)
  · -- last column tile: the output block is written
    rw [show (dat2 V c).leavesExact 5 t = owns (c : Thread nD τ) (ms2_5 t) fullShare ((dat2 V c).after 5 t) from by
      unfold Dat.leavesExact; rw [liveAt2_5 t h3], after2_5]
    by_cases hz : t.val = 0
    · rw [PhiS_castSucc V c t, PhiS_zero V c _ _ hz, PhiA2_rest]; unfold restWith
      iintro ⟨⟨⟨R0, R1, R2, R3, R4, R5, R6, R7, R8, ⟨%ds, HS⟩⟩, Hg⟩, Ho, ⟨%d0, H0⟩, ⟨%d1, H1⟩, ⟨%d2, H2⟩, ⟨%d3, H3⟩, ⟨%d4, H4⟩, ⟨%d5, H5⟩⟩
      iapply (sound_kernel2 c Set.univ (grid2.coords t) _ _ _ _ _ _ _ _ _ _ _ _ _ _ (blkA V c t) (blkS V c t) (blkDr V c t) (blkDc V c t) (blkB V c t) ds _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      unfold outNext; rw [if_pos h3, hstep ds (Or.inl hz)]
      isplitl [R0 R1 R2 R3 R4 R5 R6 R7 R8 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        · iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]; unfold restWith
      iintro ⟨⟨⟨R0, R1, R2, R3, R4, R5, R6, R7, R8, HS⟩, Hg⟩, Ho, ⟨%d0, H0⟩, ⟨%d1, H1⟩, ⟨%d2, H2⟩, ⟨%d3, H3⟩, ⟨%d4, H4⟩, ⟨%d5, H5⟩⟩
      iapply (sound_kernel2 c Set.univ (grid2.coords t) _ _ _ _ _ _ _ _ _ _ _ _ _ _ (blkA V c t) (blkS V c t) (blkDr V c t) (blkDc V c t) (blkB V c t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      unfold outNext; rw [if_pos h3, hstep _ (Or.inr rfl)]
      isplitl [R0 R1 R2 R3 R4 R5 R6 R7 R8 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        · iexact Hg
      isplitl [Ho]; · iexact Ho
      isplitl [H0]; · iexact H0
      isplitl [H1]; · iexact H1
      isplitl [H2]; · iexact H2
      isplitl [H3]; · iexact H3
      isplitl [H4]; · iexact H4
      iexact H5
  · -- any other column tile: the output window is idle and handed back as found
    rw [Dat.leavesExact_idle (dat2 V c) 5 t (idleAt2_5 t h3) (noFlush2_5 t h3)]
    by_cases hz : t.val = 0
    · rw [PhiS_castSucc V c t, PhiS_zero V c _ _ hz, PhiA2_rest]; unfold restWith
      iintro ⟨⟨⟨R0, R1, R2, R3, R4, R5, R6, R7, R8, ⟨%ds, HS⟩⟩, Hg⟩, Ho, ⟨%d0, H0⟩, ⟨%d1, H1⟩, ⟨%d2, H2⟩, ⟨%d3, H3⟩, ⟨%d4, H4⟩, ⟨%d5, H5⟩⟩
      iapply (sound_kernel2 c Set.univ (grid2.coords t) _ _ _ _ _ _ _ _ _ _ _ _ _ _ (blkA V c t) (blkS V c t) (blkDr V c t) (blkDc V c t) (blkB V c t) ds _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      unfold outNext; rw [if_neg h3, hstep ds (Or.inl hz)]
      isplitl [R0 R1 R2 R3 R4 R5 R6 R7 R8 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]; unfold restWith
      iintro ⟨⟨⟨R0, R1, R2, R3, R4, R5, R6, R7, R8, HS⟩, Hg⟩, Ho, ⟨%d0, H0⟩, ⟨%d1, H1⟩, ⟨%d2, H2⟩, ⟨%d3, H3⟩, ⟨%d4, H4⟩, ⟨%d5, H5⟩⟩
      iapply (sound_kernel2 c Set.univ (grid2.coords t) _ _ _ _ _ _ _ _ _ _ _ _ _ _ (blkA V c t) (blkS V c t) (blkDr V c t) (blkDc V c t) (blkB V c t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      unfold outNext; rw [if_neg h3, hstep _ (Or.inr rfl)]
      isplitl [R0 R1 R2 R3 R4 R5 R6 R7 R8 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the resting one back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = PhiS V c (Fin.last cfg2.N).val (Nat.le_of_lt_succ (Fin.last cfg2.N).isLt) from rfl,
    PhiS_pos V c _ _ hne, PhiA2_rest]
  unfold restWith
  iintro ⟨⟨R0, R1, R2, R3, R4, R5, R6, R7, R8, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  · iexact Hg

end

end Cert.Kernel.Hand

end
-- ==== Proof.K.Run.lean ====
/-
  The run of @main: region 0, region 1, two host operations (the degree column transposed to a row; the bias
  reshaped to a row), region 2. Between two items the core's unscoped buffers are held whole at contents named
  here as a fold from the launch memory: after a region its arrays at what its write-backs leave and every other
  buffer as entered; after the host operations their results. Each region is entered from that state and left
  at the next; the launch theorem for a list of segments then gives: every weakly fair execution terminates,
  nothing faults, and at the end every unscoped buffer holds the last contents of the fold. Read at the four
  argument arrays this is the frame (no item writes an argument); read at the result array it is what region 2's
  write-backs leave.
-/
import proofs.«116911_j17403207483981_1_alg».proof.Proof.K.Reg0
import proofs.«116911_j17403207483981_1_alg».proof.Proof.K.Reg1
import proofs.«116911_j17403207483981_1_alg».proof.Proof.K.Reg2Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the two host operations (region 2's entry). -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b
/-- At region 2's exit: the end. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W4_main_arg1 (c : Dev nD) : W4 m ρ c (Proc.devRef .tc main_arg1) = m ((c : Thread nD τ).loc main_arg1) :=
  ((W4_arr m ρ c 0).trans (((dat2 (V3 m ρ) c).arrAt_in 0 rfl _).trans (A_eq2 (V3 m ρ) c 0))).trans (W3_main_arg1 m ρ c)

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The result array at the end is what region 2's write-backs leave. -/
theorem W4_main_v4 (c : Dev nD) : W4 m ρ c (Proc.devRef .tc main_v4) = (dat2 (V3 m ρ) c).arrAt 5 cfg2.N :=
  W4_arr m ρ c 5

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- Neither host operation allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at those after it:
    its arrays are split out of the unscoped buffers at entry and put back at the exit contents; the generator register
    goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those after it:
    its arrays are split out of the unscoped buffers at entry and put back at the exit contents; the generator register
    goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those after it:
    its arrays are split out of the unscoped buffers at entry and put back at the exit contents; the generator register
    goes into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    refine BIBase.Entails.trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last contents of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

/-- The run with the result named: the result array ends at what region 2's write-backs leave, the arguments as launched. -/
theorem run_value : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.Kernel.Hand

end
-- ==== Proof.KI.Reg0.lean ====
/-
  The first kernel region, the degree vector: at each of its 32 points the body reads a block of 256 whole
  rows of A and writes, for each of them, the inverse square root of the row's sum plus one. Stated at the
  contents `V` the region finds in the core's buffers. The body's one store covers its output block, so
  what the block holds afterwards is the payload of the rows read; the input block is left as found.
  From this: the proof data of the region (entry arrays, what every point leaves in each staging buffer)
  and the obligation that the body, run at any point, does leave that.
-/
import proofs.«116911_j17403207483981_1_alg».proof.Proof.Gen.KernelIdeal.Launch
import proofs.«116911_j17403207483981_1_alg».proof.Proof.Gen.KernelIdeal.Skeleton
import proofs.«116911_j17403207483981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of A are in their staging buffer at every point: the window is fetched at each point, its blocks
    tile the array, and the body leaves it as found. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block, and the whole output block. -/
abbrev rA0 : Rect S256x8192 := Rect.unit (s := S256x8192) ![0, 0] S256x8192.size inb_S256x8192_S256x8192_0_0
abbrev rD0 : Rect S256x1 := Rect.unit (s := S256x1) ![0, 0] S256x1.size inb_S256x1_S256x1_0_0

/-- What the body leaves in the degree block: its one store, the inverse square roots of the row sums plus one. -/
def out0_1 (x0 : Vec F S256x8192 .f32) : Vec F S256x1 .f32 :=
  View.canon [⟨rD0, k0_pay1 (View.ld x0 rA0)⟩]

/-- The store covers the block. -/
theorem cover0_1 (p0 : Vec F S256x1 .f32) (y : S256x1.Idx) :
    ∃ pc ∈ ([⟨rD0, p0⟩] : List (View.Piece (Elt F) S256x1 .f32)), y ∈ pc.1.set :=
  View.cover_of_tiled [⟨rD0, p0⟩] S256x1.size (by rfl) y

set_option maxHeartbeats 1000000 in
/-- The body on whole staging buffers, the rows at contents `x0` and the degree block at anything, runs to the
    end leaving the rows as they were and the degree block at `out0_1 x0`. -/
theorem sound_kernel0 (c : Dev nD) (E : Set ℕ) (i : grid0.Coords) (arg1 : Memref sig .tc .vmem S256x8192 .f32) (harg1 : arg1.IsWhole) (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__d_kernel i arg1 harg1 arg2 harg2) K := by
  simp only [cc0__d_kernel_eq_skeleton]; unfold cc0__d_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`: the arrays as found; after the body at point `t` the rows' buffer at
    its block and the degree buffer at `out0_1` of it; the scratch and the generator register untouched;
    nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Reg1.lean ====
/-
  The second kernel region, S = X W: at each of its 4 points the body reads a block of 2048 whole rows of X and
  the whole of W (the same block at every point) and writes their product, contracted over the input
  features onto a zero accumulator, into the matching 2048 rows of S. Stated at the contents `V` the region
  finds in the core's buffers. The one store covers the output block; both inputs are left as found.
-/
import proofs.«116911_j17403207483981_1_alg».proof.Proof.Gen.KernelIdeal.Launch
import proofs.«116911_j17403207483981_1_alg».proof.Proof.Gen.KernelIdeal.Skeleton
import proofs.«116911_j17403207483981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of X are in their staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- W is in its staging buffer at every point: fetched at the first, its block index never moves after. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole blocks of X, of W and of S. -/
abbrev rX1 : Rect S2048x256 := Rect.unit (s := S2048x256) ![0, 0] S2048x256.size inb_S2048x256_S2048x256_0_0
abbrev rW1 : Rect S256x256 := Rect.unit (s := S256x256) ![0, 0] S256x256.size inb_S256x256_S256x256_0_0

/-- What the body leaves in the block of S: its one store, the product of the two blocks read. -/
def out1_2 (x0 : Vec F S2048x256 .f32) (x1 : Vec F S256x256 .f32) : Vec F S2048x256 .f32 :=
  View.canon [⟨rX1, k1_pay1 (View.ld x0 rX1) (View.ld x1 rW1)⟩]

/-- The store covers the block. -/
theorem cover1_2 (p0 : Vec F S2048x256 .f32) (y : S2048x256.Idx) :
    ∃ pc ∈ ([⟨rX1, p0⟩] : List (View.Piece (Elt F) S2048x256 .f32)), y ∈ pc.1.set :=
  View.cover_of_tiled [⟨rX1, p0⟩] S2048x256.size (by rfl) y

set_option maxHeartbeats 1000000 in
/-- The body on whole staging buffers, X's rows at `x0`, W at `x1` and the block of S at anything, runs to the end
    leaving the inputs as they were and the block of S at `out1_2 x0 x1`. -/
theorem sound_kernel1 (c : Dev nD) (E : Set ℕ) (i : grid1.Coords) (arg1 : Memref sig .tc .vmem S2048x256 .f32) (harg1 : arg1.IsWhole) (arg2 : Memref sig .tc .vmem S256x256 .f32) (harg2 : arg2.IsWhole) (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__support_kernel i arg1 harg1 arg2 harg2 arg3 harg3) K := by
  simp only [cc1__support_kernel_eq_skeleton]; unfold cc1__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as found; after the body at point `t` each input's buffer at
    its block and the buffer of S at `out1_2` of them; the scratch and the generator register untouched;
    nothing owed; whole shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Reg2Defs.lean ====
/-
  The third kernel region, the normalised contraction, on its 8 × 8 grid of (row tile i, column tile k): what its
  body does at a point, as functions of the blocks it reads. The body keeps a 1024 × 256 accumulator in scratch
  across the column tiles of a row tile: it is set to zero when k = 0, takes the product of the scaled block
  ((d_row ⊙ A_ik) ⊙ d_col) with the block S_k at every point, takes the diagonal term (d_row ⊙ d_row) ⊙ S_k
  when k = i, and when k = 7 is written, plus the bias row, to the output block. Every store is of a whole
  block, so the accumulator after the body is the last value stored and every later load in the body reads
  the value stored before it. The three conditions are scalar tests on the grid coordinates; over the 64
  points they are decided in closed form on the point's number t = 8 i + k.
-/
import proofs.«116911_j17403207483981_1_alg».proof.Proof.Gen.KernelIdeal.Launch
import proofs.«116911_j17403207483981_1_alg».proof.Proof.Gen.KernelIdeal.Skeleton
import proofs.«116911_j17403207483981_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions -/

/-- "This is the first column tile" (k = 0): the accumulator is reset. -/
abbrev cond2_1 (i : grid2.Coords) : Prop :=
  (Scalar.cmpi .ne (Scalar.extui (Scalar.cmpi .eq (BitVec.ofNat 32 (i 1).val) 0#32)) 0#32) = 1#1
/-- "This is the diagonal tile" (i = k): the identity's share is added. -/
abbrev cond2_2 (i : grid2.Coords) : Prop :=
  (Scalar.cmpi .ne (Scalar.extui (Scalar.cmpi .eq (BitVec.ofNat 32 (i 0).val) (BitVec.ofNat 32 (i 1).val))) 0#32) = 1#1
/-- "This is the last column tile" (k = 7): the output block is written. -/
abbrev cond2_3 (i : grid2.Coords) : Prop := k2_cond3 i = 1#1

instance (i : grid2.Coords) : Decidable (cond2_1 i) := inferInstanceAs (Decidable (_ = _))
instance (i : grid2.Coords) : Decidable (cond2_2 i) := inferInstanceAs (Decidable (_ = _))
instance (i : grid2.Coords) : Decidable (cond2_3 i) := inferInstanceAs (Decidable (_ = _))

theorem hcond2_1 : ∀ t : Fin cfg2.N, cond2_1 (grid2.coords t) ↔ t.val % 8 = 0 :=
  (by decide +kernel : ∀ t : Fin grid2.N, cond2_1 (grid2.coords t) ↔ t.val % 8 = 0)
theorem hcond2_2 : ∀ t : Fin cfg2.N, cond2_2 (grid2.coords t) ↔ t.val % 9 = 0 :=
  (by decide +kernel : ∀ t : Fin grid2.N, cond2_2 (grid2.coords t) ↔ t.val % 9 = 0)
theorem hcond2_3 : ∀ t : Fin cfg2.N, cond2_3 (grid2.coords t) ↔ t.val % 8 = 7 :=
  (by decide +kernel : ∀ t : Fin grid2.N, cond2_3 (grid2.coords t) ↔ t.val % 8 = 7)

/-- The point's coordinates: row tile and column tile. -/
theorem coords2_0 : ∀ t : Fin cfg2.N, ((grid2.coords t) 0).val = t.val / 8 :=
  (by decide +kernel : ∀ t : Fin grid2.N, ((grid2.coords t) 0).val = t.val / 8)
theorem coords2_1 : ∀ t : Fin cfg2.N, ((grid2.coords t) 1).val = t.val % 8 :=
  (by decide +kernel : ∀ t : Fin grid2.N, ((grid2.coords t) 1).val = t.val % 8)

/-! ## Where the windows are idle -/

theorem liveAt2_0 : ∀ i, cfg2.idle 0 i = false := fun _ => rfl
theorem liveAt2_1 : ∀ i, cfg2.idle 1 i = false := fun _ => rfl
theorem liveAt2_2 : ∀ i, cfg2.idle 2 i = false := fun _ => rfl
theorem liveAt2_3 : ∀ i, cfg2.idle 3 i = false := fun _ => rfl
theorem liveAt2_4 : ∀ i, cfg2.idle 4 i = false := fun _ => rfl
/-- The output window is idle exactly off the last column tile, and not written back there. -/
theorem idleAt2_5 : ∀ t : Fin cfg2.N, ¬cond2_3 (grid2.coords t) → cfg2.idle 5 (grid2.coords t) = true := by decide +kernel
theorem noFlush2_5 : ∀ t : Fin cfg2.N, ¬cond2_3 (grid2.coords t) → (cfg2.win 5).flush t = false := by decide +kernel
theorem liveAt2_5 : ∀ t : Fin cfg2.N, cond2_3 (grid2.coords t) → cfg2.idle 5 (grid2.coords t) = false := by decide +kernel

/-! ## The staging buffers at a point, and the scratch -/

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x256 .f32 := win2_5.stage (cfg2.slots t 5)
abbrev hs2_5 (t : Fin cfg2.N) : (ms2_5 t).IsWhole := hstage2_5 ((cfg2.slots t 5).cast nbuf2_5)
/-- The accumulator: a whole scoped buffer of the kernel's own. -/
abbrev scM2 : Memref sig .tc .vmem S1024x256 .f32 := Memref.whole cc2_scratch0

/-- The region's resting invariant with the accumulator named as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2 fullShare d)) ∗ (∃ r, prngReg c r)) := by
  unfold Pipeline.ΦA; rw [scopedRest2_eq]; simp only [scM2, owns_whole]; try rfl

/-! ## What the body leaves -/

/-- The accumulator after the body, from the blocks read (`x0` the block of A, `x1` the block of S, `x2` the
    column of row factors, `x3` the row of column factors) and what the point before left (`xs`). -/
def scrNext (i : grid2.Coords) (x0 : Vec F S1024x1024 .f32) (x1 : Vec F S1024x256 .f32) (x2 : Vec F S1024x1 .f32)
    (x3 : Vec F S1x1024 .f32) (xs : Vec F S1024x256 .f32) : Vec F S1024x256 .f32 :=
  let s0 : Vec F S1024x256 .f32 := if cond2_1 i then k2_pay1 (F := F) else xs
  let s1 : Vec F S1024x256 .f32 := k2_pay3 x0 x2 x3 x1 s0
  if cond2_2 i then k2_pay4 x2 s1 x1 else s1

/-- The output block after the body: on the last column tile the accumulator plus the bias row `x4`; elsewhere
    as found (`xo`). -/
def outNext (i : grid2.Coords) (x0 : Vec F S1024x1024 .f32) (x1 : Vec F S1024x256 .f32) (x2 : Vec F S1024x1 .f32)
    (x3 : Vec F S1x1024 .f32) (x4 : Vec F S1x256 .f32) (xs xo : Vec F S1024x256 .f32) : Vec F S1024x256 .f32 :=
  if cond2_3 i then k2_pay5 (scrNext i x0 x1 x2 x3 xs) x4 else xo

end Cert.KernelIdeal.Hand

end
-- ==== Proof.KI.Reg2Body.lean ====
/-
  The third region's body as one triple: on whole staging buffers holding the blocks `x0` … `x4`, the output
  buffer at `xo` and the accumulator at `xs`, the body runs to the end leaving the inputs as they were, the
  accumulator at `scrNext` and the output buffer at `outNext`. The body branches three times on the point's
  coordinates, so the triple is proved once per truth assignment of the three conditions; in each the
  executor decides the branches from the assignment, and what the stores leave is read back: every store is
  of the whole block, so the buffer ends at the last value stored and a load after a store reads that value.
-/
import proofs.«116911_j17403207483981_1_alg».proof.Proof.KI.Reg2Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of the accumulator (and of the output, and of S): the rectangle every access of them uses. -/
abbrev rS2 : Rect S1024x256 := Rect.unit (s := S1024x256) ![0, 0] S1024x256.size inb_S1024x256_S1024x256_0_0

/-! ## Whole-block stores and loads

Every access of the body is through the rectangle of a whole block at zero offsets. Such a rectangle holds every
index, so after any list of stores whose last is through it the buffer reads as that store's value, a load
through it after such a list reads that value too, and a load through it of a buffer no store has touched
reads the buffer's contents. -/

section whole
variable {Val : EltTy → Type} [∀ e, Nonempty (Val e)] {S : Shape} {e : EltTy}
variable {sg : RefSig} {κ : Kind} {sp : Space}

/-- The offsets of a whole block of a rank-two buffer are zero. -/
private theorem hz2 : (![0, 0] : Fin 2 → ℕ) = fun _ => 0 := funext fun a => by fin_cases a <;> rfl

/-- After a list of stores whose last is of the whole block, the buffer reads as that store's value. -/
private theorem read_writes_whole_cons (v : View sg κ sp S e) (f : v.ty.Contents Val) {off : Fin S.rank → ℕ}
    (hz : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero hz inb y⟩),
    View.canon_cons_unit_zero hz inb]

/-- A load of the whole block after such a list of stores reads the last store's value. -/
private theorem readCov_whole_cons (v : View sg κ sp S e) {off : Fin S.rank → ℕ}
    (hz : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero hz inb y⟩),
    View.canon_cons_unit_zero hz inb, View.ld_unit_zero hz inb]

/-- A load of the whole block of a buffer no store has touched reads its contents. -/
private theorem readAt_whole (v : View sg κ sp S e) (f : v.ty.Contents Val) {off : Fin S.rank → ℕ}
    (hz : off = fun _ => 0) (inb : ∀ a, off a + S.size a ≤ S.size a) :
    v.readAt Val (Rect.unit off S.size inb).toLoadRect f = v.read Val f := by
  rw [View.readAt_eq_ld, View.ld_unit_zero hz inb]

end whole

/-! ## The triple, case by case

In each case the executor runs the body with the three branches decided by the case's assumptions; the inputs'
buffers are untouched, and the output's and the accumulator's contents are the stores' list read back. -/

set_option maxHeartbeats 4000000 in
/-- First column tile, on the diagonal, last column tile: reset, product, diagonal term, output. -/
private theorem sound_kernel2_TTT (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : cond2_1 i) (h2 : cond2_2 i) (h3 : cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_pos h1, if_pos h2, if_pos h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_pos h1, if_pos h2]

set_option maxHeartbeats 4000000 in
/-- First column tile, on the diagonal, not the last: reset, product, diagonal term. -/
private theorem sound_kernel2_TTF (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : cond2_1 i) (h2 : cond2_2 i) (h3 : ¬cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_pos h1, if_pos h2, if_neg h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_pos h1, if_pos h2]

set_option maxHeartbeats 4000000 in
/-- First column tile, off the diagonal, last column tile: reset, product, output. -/
private theorem sound_kernel2_TFT (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : cond2_1 i) (h2 : ¬cond2_2 i) (h3 : cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_pos h1, if_neg h2, if_pos h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_pos h1, if_neg h2]

set_option maxHeartbeats 4000000 in
/-- First column tile, off the diagonal, not the last: reset, product. -/
private theorem sound_kernel2_TFF (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : cond2_1 i) (h2 : ¬cond2_2 i) (h3 : ¬cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_pos h1, if_neg h2, if_neg h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_pos h1, if_neg h2]

set_option maxHeartbeats 4000000 in
/-- A later column tile, on the diagonal, the last: product, diagonal term, output. -/
private theorem sound_kernel2_FTT (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : ¬cond2_1 i) (h2 : cond2_2 i) (h3 : cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_neg h1, if_pos h2, if_pos h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_neg h1, if_pos h2]

set_option maxHeartbeats 4000000 in
/-- A later column tile, on the diagonal, not the last: product, diagonal term. -/
private theorem sound_kernel2_FTF (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : ¬cond2_1 i) (h2 : cond2_2 i) (h3 : ¬cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_neg h1, if_pos h2, if_neg h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_neg h1, if_pos h2]

set_option maxHeartbeats 4000000 in
/-- A later column tile, off the diagonal, the last: product, output. -/
private theorem sound_kernel2_FFT (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : ¬cond2_1 i) (h2 : ¬cond2_2 i) (h3 : cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_neg h1, if_neg h2, if_pos h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_neg h1, if_neg h2]

set_option maxHeartbeats 4000000 in
/-- A later column tile, off the diagonal, not the last: product alone. -/
private theorem sound_kernel2_FFF (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (h1 : ¬cond2_1 i) (h2 : ¬cond2_2 i) (h3 : ¬cond2_3 i)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  simp only [cc2__main_kernel_eq_skeleton]; unfold cc2__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact h1 | exact h2 | exact h3)
  sl_step
  iapply Hk
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      outNext, scrNext, if_neg h1, if_neg h2, if_neg h3]
  · iexists _; isplitr; swap; iexact H6; ipureintro
    sl_unfold_run_names
    simp only [read_writes_whole_cons (S := S1024x256) _ _ hz2, readCov_whole_cons (S := S1024x256) _ hz2,
      readAt_whole (S := S1024x256) _ _ hz2, readAt_whole (S := S1024x1024) _ _ hz2, readAt_whole (S := S1024x1) _ _ hz2,
      readAt_whole (S := S1x1024) _ _ hz2, readAt_whole (S := S1x256) _ _ hz2,
      scrNext, if_neg h1, if_neg h2]

/-- The body's triple. -/
theorem sound_kernel2 (c : Dev nD) (E : Set ℕ) (i : grid2.Coords)
    (arg2 : Memref sig .tc .vmem S1024x1024 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x256 .f32) (harg6 : arg6.IsWhole) (arg7 : Memref sig .tc .vmem S1024x256 .f32) (harg7 : arg7.IsWhole)
    (arg8 : Memref sig .tc .vmem S1024x256 .f32) (harg8 : arg8.IsWhole)
    (x0 : Vec F S1024x1024 .f32) (x1 : Vec F S1024x256 .f32) (x2 : Vec F S1024x1 .f32) (x3 : Vec F S1x1024 .f32) (x4 : Vec F S1x256 .f32)
    (xs xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outNext i x0 x1 x2 x3 x4 xs xo)
            ∗ owns (c : Thread nD τ) arg8 fullShare (scrNext i x0 x1 x2 x3 xs)) -∗ K ⟨⟩))
      ⊢ wp frame (wpE (defs₀ (F := F)) Variants.none c none) E (cc2__main_kernel i arg2 harg2 arg3 harg3 arg4 harg4 arg5 harg5 arg6 harg6 arg7 harg7 arg8 harg8) K := by
  by_cases h1 : cond2_1 i
  · by_cases h2 : cond2_2 i
    · by_cases h3 : cond2_3 i
      · exact sound_kernel2_TTT c E i arg2 harg2 arg3 harg3 arg4 harg4 arg5 harg5 arg6 harg6 arg7 harg7 arg8 harg8 h1 h2 h3 x0 x1 x2 x3 x4 xs xo K
      · exact sound_kernel2_TTF c E i arg2 harg2 arg3 harg3 arg4 harg4 arg5 harg5 arg6 harg6 arg7 harg7 arg8 harg8 h1 h2 h3 x0 x1 x2 x3 x4 xs xo K
    · by_cases h3 : cond2_3 i
      · exact sound_kernel2_TFT c E i arg2 harg2 arg3 harg3 arg4 harg4 arg5 harg5 arg6 harg6 arg7 harg7 arg8 harg8 h1 h2 h3 x0 x1 x2 x3 x4 xs xo K
      · exact sound_kernel2_TFF c E i arg2 harg2 arg3 harg3 arg4 harg4 arg5 harg5 arg6 harg6 arg7 harg7 arg8 harg8 h1 h2 h3 x0 x1 x2 x3 x4 xs xo K
  · by_cases h2 : cond2_2 i
    · by_cases h3 : cond2_3 i
      · exact sound_kernel2_FTT c E i arg2 harg2 arg3 harg3 arg4 harg4 arg5 harg5 arg6 harg6 arg7 harg7 arg8 harg8 h1 h2 h3 x0 x1 x2 x3 x4 xs xo K
      · exact sound_kernel2_FTF c E i arg2 harg2 arg3 harg3 arg4 harg4 arg5 harg5 arg6 harg6 arg7 harg7 arg8 harg8 h1 h2 h3 x0 x1 x2 x3 x4 xs xo K
    · by_cases h3 : cond2_3 i
      · exact sound_kernel2_FFT c E i arg2 harg2 arg3 harg3 arg4 harg4 arg5 harg5 arg6 harg6 arg7 harg7 arg8 harg8 h1 h2 h3 x0 x1 x2 x3 x4 xs xo K
      · exact sound_kernel2_FFF c E i arg2 harg2 arg3 harg3 arg4 harg4 arg5 harg5 arg6 harg6 arg7 harg7 arg8 harg8 h1 h2 h3 x0 x1 x2 x3 x4 xs xo K

end Cert.KernelIdeal.Hand

end
-- ==== Proof.KI.Reg2Dat.lean ====
/-
  The third region's proof data. The accumulator the body carries in scratch is tracked point by point:
  `scrAt n` is what it holds after point n, the body's step `scrNext` applied to the point's blocks and to
  `scrAt (n - 1)` (at the first point to anything: the step resets there). The region's invariant before a
  point is the resting one with the accumulator at that value (before the first point: at anything). The five
  input windows are left as found, so each is at its block at every point whether fetched there or not; the
  output window is written only on the last column tile of a row tile, and elsewhere handed back untouched.
-/
import proofs.«116911_j17403207483981_1_alg».proof.Proof.KI.Reg2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of A, of S, the row factors, the column factors and the bias row at point `t`, at their literal types. -/
abbrev blkA (c : Dev nD) (t : Fin cfg2.N) : Vec F S1024x1024 .f32 := iblk2 V c 0 t
abbrev blkS (c : Dev nD) (t : Fin cfg2.N) : Vec F S1024x256 .f32 := iblk2 V c 1 t
abbrev blkDr (c : Dev nD) (t : Fin cfg2.N) : Vec F S1024x1 .f32 := iblk2 V c 2 t
abbrev blkDc (c : Dev nD) (t : Fin cfg2.N) : Vec F S1x1024 .f32 := iblk2 V c 3 t
abbrev blkB (c : Dev nD) (t : Fin cfg2.N) : Vec F S1x256 .f32 := iblk2 V c 4 t

/-- The step at a point where the accumulator is reset does not depend on what it held. -/
theorem scrNext_reset (i : grid2.Coords) (h : cond2_1 i) (x0 : Vec F S1024x1024 .f32) (x1 : Vec F S1024x256 .f32) (x2 : Vec F S1024x1 .f32)
    (x3 : Vec F S1x1024 .f32) (xs xs' : Vec F S1024x256 .f32) : scrNext i x0 x1 x2 x3 xs = scrNext i x0 x1 x2 x3 xs' := by
  unfold scrNext; simp only [if_pos h]

/-- What the accumulator holds after point `n`. -/
def scrAt (c : Dev nD) : (n : ℕ) → n < cfg2.N → Vec F S1024x256 .f32
  | 0, hn => scrNext (grid2.coords ⟨0, hn⟩) (blkA V c ⟨0, hn⟩) (blkS V c ⟨0, hn⟩) (blkDr V c ⟨0, hn⟩) (blkDc V c ⟨0, hn⟩) (k2_pay1 (F := F))
  | n + 1, hn => scrNext (grid2.coords ⟨n + 1, hn⟩) (blkA V c ⟨n + 1, hn⟩) (blkS V c ⟨n + 1, hn⟩) (blkDr V c ⟨n + 1, hn⟩) (blkDc V c ⟨n + 1, hn⟩)
      (scrAt c n (Nat.lt_of_succ_lt hn))

theorem scrAt_zero (c : Dev nD) (t : Fin cfg2.N) (h : t.val = 0) (xs : Vec F S1024x256 .f32) :
    scrAt V c t.val t.isLt = scrNext (grid2.coords t) (blkA V c t) (blkS V c t) (blkDr V c t) (blkDc V c t) xs := by
  obtain ⟨n, hn⟩ := t
  cases n with
  | zero => exact scrNext_reset _ ((hcond2_1 ⟨0, hn⟩).mpr (Nat.zero_mod _)) _ _ _ _ _ _
  | succ n => exact absurd h (Nat.succ_ne_zero n)

theorem scrAt_pos (c : Dev nD) (t : Fin cfg2.N) (h : t.val ≠ 0) :
    scrAt V c t.val t.isLt = scrNext (grid2.coords t) (blkA V c t) (blkS V c t) (blkDr V c t) (blkDc V c t)
      (scrAt V c (t.val - 1) (Nat.lt_of_le_of_lt (Nat.sub_le _ _) t.isLt)) := by
  obtain ⟨n, hn⟩ := t
  cases n with
  | zero => exact absurd rfl h
  | succ n => rfl

/-- The core's scoped buffers other than this region's staging buffers, with the accumulator at `X`. -/
def restWith (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ X)

theorem PhiA2_rest (c : Dev nD) :
    (Pipeline.ΦA spec2 c : sProp 𝕄) = iprop(restWith c (iprop(∃ d, owns (c : Thread nD τ) scM2 fullShare d)) ∗ (∃ r, prngReg c r)) := by
  rw [PhiA2_eq]; rfl

/-- The region's invariant before position `n`: before the first point the resting one; afterwards the same with the
    accumulator at what the point before left. -/
def PhiS (c : Dev nD) : (n : ℕ) → n ≤ cfg2.N → sProp 𝕄
  | 0, _ => Pipeline.ΦA spec2 c
  | n + 1, hn => iprop(restWith c (owns (c : Thread nD τ) scM2 fullShare (scrAt V c n hn)) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(restWith c (owns (c : Thread nD τ) scM2 fullShare (scrAt V c n hn)) ∗ (∃ r, prngReg c r)) := rfl
theorem PhiS_pos (c : Dev nD) (n : ℕ) (h : n ≤ cfg2.N) (hz : n ≠ 0) :
    PhiS V c n h = iprop(restWith c (owns (c : Thread nD τ) scM2 fullShare (scrAt V c (n - 1) (by omega))) ∗ (∃ r, prngReg c r)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay5 (scrAt V c t.val t.isLt) (blkB V c t)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay5 (scrAt V c t.val t.isLt) (blkB V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms2_0 t) fullShare ((dat2 V c).after 0 t) from by
    unfold Dat.leavesExact; rw [liveAt2_0 (grid2.coords t)], after2_0]
  rw [show (dat2 V c).leavesExact 1 t = owns (c : Thread nD τ) (ms2_1 t) fullShare ((dat2 V c).after 1 t) from by
    unfold Dat.leavesExact; rw [liveAt2_1 (grid2.coords t)], after2_1]
  rw [show (dat2 V c).leavesExact 2 t = owns (c : Thread nD τ) (ms2_2 t) fullShare ((dat2 V c).after 2 t) from by
    unfold Dat.leavesExact; rw [liveAt2_2 (grid2.coords t)], after2_2]
  rw [show (dat2 V c).leavesExact 3 t = owns (c : Thread nD τ) (ms2_3 t) fullShare ((dat2 V c).after 3 t) from by
    unfold Dat.leavesExact; rw [liveAt2_3 (grid2.coords t)], after2_3]
  rw [show (dat2 V c).leavesExact 4 t = owns (c : Thread nD τ) (ms2_4 t) fullShare ((dat2 V c).after 4 t) from by
    unfold Dat.leavesExact; rw [liveAt2_4 (grid2.coords t)], after2_4]
  -- the accumulator after this point is the step applied to whatever the invariant hands over
  have hstep : ∀ xs : Vec F S1024x256 .f32,
      (t.val = 0 ∨ xs = scrAt V c (t.val - 1) (Nat.lt_of_le_of_lt (Nat.sub_le _ _) t.isLt)) →
      scrNext (grid2.coords t) (blkA V c t) (blkS V c t) (blkDr V c t) (blkDc V c t) xs = scrAt V c t.val t.isLt := by
    intro xs h
    by_cases hz : t.val = 0
    · exact (scrAt_zero V c t hz xs).symm
    · rcases h with h | h
      · exact absurd h hz
      · rw [h]; exact (scrAt_pos V c t hz).symm
  by_cases h3 : cond2_3 (grid2.coords t)
  · -- last column tile: the output block is written
    rw [show (dat2 V c).leavesExact 5 t = owns (c : Thread nD τ) (ms2_5 t) fullShare ((dat2 V c).after 5 t) from by
      unfold Dat.leavesExact; rw [liveAt2_5 t h3], after2_5]
    by_cases hz : t.val = 0
    · rw [PhiS_castSucc V c t, PhiS_zero V c _ _ hz, PhiA2_rest]; unfold restWith
      iintro ⟨⟨⟨R0, R1, R2, R3, R4, R5, R6, R7, R8, ⟨%ds, HS⟩⟩, Hg⟩, Ho, ⟨%d0, H0⟩, ⟨%d1, H1⟩, ⟨%d2, H2⟩, ⟨%d3, H3⟩, ⟨%d4, H4⟩, ⟨%d5, H5⟩⟩
      iapply (sound_kernel2 c Set.univ (grid2.coords t) _ _ _ _ _ _ _ _ _ _ _ _ _ _ (blkA V c t) (blkS V c t) (blkDr V c t) (blkDc V c t) (blkB V c t) ds _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      unfold outNext; rw [if_pos h3, hstep ds (Or.inl hz)]
      isplitl [R0 R1 R2 R3 R4 R5 R6 R7 R8 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        · iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]; unfold restWith
      iintro ⟨⟨⟨R0, R1, R2, R3, R4, R5, R6, R7, R8, HS⟩, Hg⟩, Ho, ⟨%d0, H0⟩, ⟨%d1, H1⟩, ⟨%d2, H2⟩, ⟨%d3, H3⟩, ⟨%d4, H4⟩, ⟨%d5, H5⟩⟩
      iapply (sound_kernel2 c Set.univ (grid2.coords t) _ _ _ _ _ _ _ _ _ _ _ _ _ _ (blkA V c t) (blkS V c t) (blkDr V c t) (blkDc V c t) (blkB V c t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      unfold outNext; rw [if_pos h3, hstep _ (Or.inr rfl)]
      isplitl [R0 R1 R2 R3 R4 R5 R6 R7 R8 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        · iexact Hg
      isplitl [Ho]; · iexact Ho
      isplitl [H0]; · iexact H0
      isplitl [H1]; · iexact H1
      isplitl [H2]; · iexact H2
      isplitl [H3]; · iexact H3
      isplitl [H4]; · iexact H4
      iexact H5
  · -- any other column tile: the output window is idle and handed back as found
    rw [Dat.leavesExact_idle (dat2 V c) 5 t (idleAt2_5 t h3) (noFlush2_5 t h3)]
    by_cases hz : t.val = 0
    · rw [PhiS_castSucc V c t, PhiS_zero V c _ _ hz, PhiA2_rest]; unfold restWith
      iintro ⟨⟨⟨R0, R1, R2, R3, R4, R5, R6, R7, R8, ⟨%ds, HS⟩⟩, Hg⟩, Ho, ⟨%d0, H0⟩, ⟨%d1, H1⟩, ⟨%d2, H2⟩, ⟨%d3, H3⟩, ⟨%d4, H4⟩, ⟨%d5, H5⟩⟩
      iapply (sound_kernel2 c Set.univ (grid2.coords t) _ _ _ _ _ _ _ _ _ _ _ _ _ _ (blkA V c t) (blkS V c t) (blkDr V c t) (blkDc V c t) (blkB V c t) ds _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      unfold outNext; rw [if_neg h3, hstep ds (Or.inl hz)]
      isplitl [R0 R1 R2 R3 R4 R5 R6 R7 R8 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]; unfold restWith
      iintro ⟨⟨⟨R0, R1, R2, R3, R4, R5, R6, R7, R8, HS⟩, Hg⟩, Ho, ⟨%d0, H0⟩, ⟨%d1, H1⟩, ⟨%d2, H2⟩, ⟨%d3, H3⟩, ⟨%d4, H4⟩, ⟨%d5, H5⟩⟩
      iapply (sound_kernel2 c Set.univ (grid2.coords t) _ _ _ _ _ _ _ _ _ _ _ _ _ _ (blkA V c t) (blkS V c t) (blkDr V c t) (blkDc V c t) (blkB V c t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      unfold outNext; rw [if_neg h3, hstep _ (Or.inr rfl)]
      isplitl [R0 R1 R2 R3 R4 R5 R6 R7 R8 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the resting one back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = PhiS V c (Fin.last cfg2.N).val (Nat.le_of_lt_succ (Fin.last cfg2.N).isLt) from rfl,
    PhiS_pos V c _ _ hne, PhiA2_rest]
  unfold restWith
  iintro ⟨⟨R0, R1, R2, R3, R4, R5, R6, R7, R8, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  · iexact Hg

end

end Cert.KernelIdeal.Hand

end
-- ==== Proof.KI.Run.lean ====
/-
  The run of @main: region 0, region 1, two host operations (the degree column transposed to a row; the bias
  reshaped to a row), region 2. Between two items the core's unscoped buffers are held whole at contents named
  here as a fold from the launch memory: after a region its arrays at what its write-backs leave and every other
  buffer as entered; after the host operations their results. Each region is entered from that state and left
  at the next; the launch theorem for a list of segments then gives: every weakly fair execution terminates,
  nothing faults, and at the end every unscoped buffer holds the last contents of the fold. Read at the four
  argument arrays this is the frame (no item writes an argument); read at the result array it is what region 2's
  write-backs leave.
-/
import proofs.«116911_j17403207483981_1_alg».proof.Proof.KI.Reg0
import proofs.«116911_j17403207483981_1_alg».proof.Proof.KI.Reg1
import proofs.«116911_j17403207483981_1_alg».proof.Proof.KI.Reg2Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the two host operations (region 2's entry). -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b
/-- At region 2's exit: the end. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W4_main_arg1 (c : Dev nD) : W4 m ρ c (Proc.devRef .tc main_arg1) = m ((c : Thread nD τ).loc main_arg1) :=
  ((W4_arr m ρ c 0).trans (((dat2 (V3 m ρ) c).arrAt_in 0 rfl _).trans (A_eq2 (V3 m ρ) c 0))).trans (W3_main_arg1 m ρ c)

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-- The result array at the end is what region 2's write-backs leave. -/
theorem W4_main_v4 (c : Dev nD) : W4 m ρ c (Proc.devRef .tc main_v4) = (dat2 (V3 m ρ) c).arrAt 5 cfg2.N :=
  W4_arr m ρ c 5

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- Neither host operation allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at those after it:
    its arrays are split out of the unscoped buffers at entry and put back at the exit contents; the generator register
    goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those after it:
    its arrays are split out of the unscoped buffers at entry and put back at the exit contents; the generator register
    goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at those after it:
    its arrays are split out of the unscoped buffers at entry and put back at the exit contents; the generator register
    goes into the region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    refine BIBase.Entails.trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last contents of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

/-- The run with the result named: the result array ends at what region 2's write-backs leave, the arguments as launched. -/
theorem run_value : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.KernelIdeal.Hand

end
-- ==== Proof.Spec.lean ====
/-
  The mathematics of the certificate, with no program in it: one graph-convolution layer,

      out = D^(-1/2) (A + I) D^(-1/2) (X W) + b,      D = diag (row sums of A + I),

  written the two ways the two programs compute it, as functions of the argument arrays index by index
  over the extended reals.

  * The reference forms A + I, takes d_r = (Σ_c (A + I)_rc)^(-1/2), scales (d_r (A + I)_rc) d_c and
    contracts with S = X W.
  * The kernel never forms A + I: d_r = ((Σ_c A_rc) + 1)^(-1/2), the contraction runs over
    (d_r A_rc) d_c alone, and the identity's share enters as the diagonal term (d_r d_r) S_rf.

  The two agree by distributing (A_rc + δ_rc) over the product, which on the extended reals wants every
  factor finite: the entries are finite by hypothesis and d_r is a real number exactly when the row sum
  of A + I is positive (at 0 the inverse square root is +∞, below 0 it has no value), which is the
  domain of the reference itself.
-/
import Idealize.ShloMosaic.PureOps.Ideal
import Idealize.ShloMosaic.Lib.ValueIdx

noncomputable section

open scoped BigOperators

namespace Cert.GcnSpec

open Idealize.ShloMosaic Idealize.ShloMosaic.ValueIdx

abbrev SX : Shape := ⟨2, ![8192, 256]⟩
abbrev SA : Shape := ⟨2, ![8192, 8192]⟩
abbrev SW : Shape := ⟨2, ![256, 256]⟩
abbrev SB : Shape := ⟨1, ![256]⟩

/-- The identity matrix's entry. -/
def eye (r c : Fin 8192) : EReal := if r = c then 1 else 0

/-- S = X W, one entry: the contraction over the 256 input features. -/
def support (x : SX.Idx → EReal) (w : SW.Idx → EReal) (r : Fin 8192) (f : Fin 256) : EReal :=
  ∑ k : Fin 256, x (ix2 r k) * w (ix2 k f)

/-- The kernel's degree factor: the row sum of A, plus one for the self-loop, to the power -1/2. -/
def degK (adj : SA.Idx → EReal) (r : Fin 8192) : EReal :=
  Ideal.rsqrt ((∑ c : Fin 8192, adj (ix2 r c)) + 1)

/-- The reference's degree factor: the row sum of A + I to the power -1/2. -/
def degR (adj : SA.Idx → EReal) (r : Fin 8192) : EReal :=
  Ideal.rsqrt (∑ c : Fin 8192, (adj (ix2 r c) + eye r c))

/-- The kernel's result: the normalised adjacency without the identity contracted with S, the identity's
    share as a diagonal term, the bias. -/
def outK (x : SX.Idx → EReal) (adj : SA.Idx → EReal) (w : SW.Idx → EReal) (b : SB.Idx → EReal)
    (r : Fin 8192) (f : Fin 256) : EReal :=
  (∑ c : Fin 8192, ((degK adj r * adj (ix2 r c)) * degK adj c) * support x w c f)
    + (degK adj r * degK adj r) * support x w r f + b (ix1 f)

/-- The reference's result: the normalised A + I contracted with S, the bias. -/
def outR (x : SX.Idx → EReal) (adj : SA.Idx → EReal) (w : SW.Idx → EReal) (b : SB.Idx → EReal)
    (r : Fin 8192) (f : Fin 256) : EReal :=
  (∑ c : Fin 8192, ((degR adj r * (adj (ix2 r c) + eye r c)) * degR adj c) * support x w c f) + b (ix1 f)

/-- The coercion of reals into the extended reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp only [Finset.sum_empty, EReal.coe_zero]
  | insert a s ha ih => rw [Finset.sum_insert ha, Finset.sum_insert ha, EReal.coe_add, ih]

/-- The identity's entry is the coercion of the real Kronecker delta. -/
private theorem eye_coe (r c : Fin 8192) : eye r c = ((if r = c then (1 : ℝ) else 0 : ℝ) : EReal) := by
  unfold eye
  split_ifs
  · exact EReal.coe_one.symm
  · exact EReal.coe_zero.symm

/-- A row of the identity sums to one. -/
private theorem sum_eye (r : Fin 8192) : ∑ c : Fin 8192, eye r c = 1 := by
  unfold eye
  rw [Finset.sum_ite_eq, if_pos (Finset.mem_univ r)]

/-- The row sum of A + I is the row sum of A, plus one. -/
private theorem rowsum_split (adj : SA.Idx → EReal) (r : Fin 8192) :
    ∑ c : Fin 8192, (adj (ix2 r c) + eye r c) = (∑ c : Fin 8192, adj (ix2 r c)) + 1 := by
  rw [Finset.sum_add_distrib, sum_eye]

/-- The two degree factors are the same number. -/
private theorem degK_eq_degR (adj : SA.Idx → EReal) (r : Fin 8192) : degK adj r = degR adj r := by
  unfold degK degR
  rw [rowsum_split]

/-- The distributive step over the reals, on any finite index type: (A_rc + δ_rc) spread over the
    product leaves the contraction over A alone plus the c = r summand. -/
private theorem real_core {n : Type} [Fintype n] [DecidableEq n] (d : n → ℝ) (a : n → n → ℝ)
    (s : n → ℝ) (bf : ℝ) (r : n) :
    (∑ c : n, ((d r * a r c) * d c) * s c) + (d r * d r) * s r + bf
      = (∑ c : n, ((d r * (a r c + if r = c then (1 : ℝ) else 0)) * d c) * s c) + bf := by
  have hsplit : ∀ c : n, ((d r * (a r c + if r = c then (1 : ℝ) else 0)) * d c) * s c
      = ((d r * a r c) * d c) * s c + (if r = c then (d r * d c) * s c else 0) := by
    intro c
    split_ifs <;> ring
  rw [Finset.sum_congr rfl (fun c _ => hsplit c), Finset.sum_add_distrib, Finset.sum_ite_eq,
    if_pos (Finset.mem_univ r)]

/-- On finite entries with every row sum of A + I positive the two forms are one function. -/
theorem outK_eq_outR (x : SX.Idx → EReal) (adj : SA.Idx → EReal) (w : SW.Idx → EReal) (b : SB.Idx → EReal)
    (hx : ∀ i, x i ≠ ⊤ ∧ x i ≠ ⊥) (hadj : ∀ i, adj i ≠ ⊤ ∧ adj i ≠ ⊥) (hw : ∀ i, w i ≠ ⊤ ∧ w i ≠ ⊥)
    (hb : ∀ i, b i ≠ ⊤ ∧ b i ≠ ⊥)
    (hpos : ∀ r : Fin 8192, 0 < ∑ c : Fin 8192, (adj (ix2 r c) + eye r c))
    (r : Fin 8192) (f : Fin 256) :
    outK x adj w b r f = outR x adj w b r f := by
  -- every entry is the coercion of a real number
  lift x to SX.Idx → ℝ using hx
  lift adj to SA.Idx → ℝ using hadj
  lift w to SW.Idx → ℝ using hw
  lift b to SB.Idx → ℝ using hb
  -- S is the coercion of the real contraction
  have hS : ∀ (c : Fin 8192) (g : Fin 256),
      support (fun i => (x i : EReal)) (fun i => (w i : EReal)) c g
        = ((∑ k : Fin 256, x (ix2 c k) * w (ix2 k g) : ℝ) : EReal) := by
    intro c g
    unfold support
    rw [coe_sum]
    exact Finset.sum_congr rfl (fun k _ => (EReal.coe_mul _ _).symm)
  -- the row sum of A + I is the coercion of a real, positive by hypothesis
  have hrow : ∀ q : Fin 8192, ∑ c : Fin 8192, (((adj (ix2 q c) : ℝ) : EReal) + eye q c)
      = ((∑ c : Fin 8192, (adj (ix2 q c) + if q = c then (1 : ℝ) else 0) : ℝ) : EReal) := by
    intro q
    rw [coe_sum]
    exact Finset.sum_congr rfl (fun c _ => by rw [eye_coe, EReal.coe_add])
  -- so the degree factor is the coercion of a real
  have hdR : ∀ q : Fin 8192, degR (fun i => (adj i : EReal)) q
      = (((Real.sqrt (∑ c : Fin 8192, (adj (ix2 q c) + if q = c then (1 : ℝ) else 0)))⁻¹ : ℝ) : EReal) := by
    intro q
    have hq := hpos q
    unfold degR
    rw [hrow q] at hq ⊢
    have hq' : 0 < ∑ c : Fin 8192, (adj (ix2 q c) + if q = c then (1 : ℝ) else 0) := EReal.coe_pos.1 hq
    rw [Ideal.rsqrt_coe, if_neg (not_lt.2 hq'.le), if_neg hq'.ne']
  -- name the real factors, so that they are atoms from here on
  obtain ⟨d, hd⟩ : ∃ d : Fin 8192 → ℝ, ∀ q : Fin 8192,
      degR (fun i => (adj i : EReal)) q = (d q : EReal) := ⟨_, hdR⟩
  have hd' : ∀ q : Fin 8192, degK (fun i => (adj i : EReal)) q = (d q : EReal) := by
    intro q
    rw [degK_eq_degR, hd]
  obtain ⟨s, hs⟩ : ∃ s : Fin 8192 → Fin 256 → ℝ, ∀ (c : Fin 8192) (g : Fin 256),
      support (fun i => (x i : EReal)) (fun i => (w i : EReal)) c g = (s c g : EReal) := ⟨_, hS⟩
  -- both sides are coercions of reals; compare them there
  unfold outK outR
  simp only [hd, hd', hs, eye_coe, ← EReal.coe_mul, ← EReal.coe_add, ← coe_sum]
  rw [EReal.coe_eq_coe_iff]
  exact real_core d (fun p c => adj (ix2 p c)) (fun c => s c f) (b (ix1 f)) r

end Cert.GcnSpec

end
-- ==== Proof.KI.Val0.lean ====
/-
  The degree vector the first region leaves, at the ideal instance: entry r of the 8192 × 1 array is the inverse
  square root of row r's sum of A plus one. Point t writes rows 256 t … 256 t + 255, each from the block of A's
  same rows; the 32 blocks cover the array, so the array after the region is that one function of A.
-/
import proofs.«116911_j17403207483981_1_alg».proof.Proof.KI.Reg0
import proofs.«116911_j17403207483981_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GcnSpec

variable (V : (c : Dev nD) → (b : Ref sig .tc) → Buf (Elt Ideal) ((c : Thread nD τ).loc b))

/-- The zero offsets of a whole-buffer rectangle, as the constant function. -/
private theorem hz : (![0, 0] : Fin 2 → Nat) = fun _ => 0 :=
  funext fun a => match a with | ⟨0, _⟩ => rfl | ⟨1, _⟩ => rfl

/-- The degree vector as one function of A: entry (r, 0) is the inverse square root of row r's sum plus one. -/
private def degArr (A : S8192x8192.Idx → EReal) : S8192x1.Idx → EReal := fun i => degK A (i 0)

/-- One entry of the body's result: the inverse square root of that row's sum over the block, plus one. The sum
    over the lanes leaves a vector of 256, recast as a column; the added constant is the number one. -/
private theorem pay_apply (x0 : Vec Ideal S256x8192 .f32) (p : Fin 256) :
    k0_pay1 (F := Ideal) x0 (ix2 p (0 : Fin 1)) = Ideal.rsqrt ((∑ k : Fin 8192, x0 (ix2 p k)) + 1) := by
  unfold k0_pay1
  show Ideal.rsqrt (shapeCast S256x1 (multiReduction (F := Ideal) .add [1] S256 x0 0x00000000#32 reduces_S256x8192_S256 (.inl rfl) rfl) shapeCasts_S256_S256x1 (ix2 p 0) + Ideal.ofBits .f32 0x3F800000#32) = _
  rw [Ideal.ofBits_one_f32]
  congr 2
  refine (shapeCast_apply _ _ (ix2 p 0) (ix1 p) ?_).trans ?_
  · rw [Shape.rowMajor_val_one, Shape.rowMajor_val_two]
    show p.val = p.val * 1 + 0
    omega
  refine (Ideal.multiReduction_add_single x0 _ reduces_S256x8192_S256 _ _ (ix1 p)).trans ?_
  refine Finset.sum_congr rfl fun k _ => congrArg x0 ?_
  funext a
  match a with
  | ⟨0, _⟩ => rfl
  | ⟨1, _⟩ => rfl

/-- When the block holds rows 256 b … 256 b + 255 of A, the body's result at row y of the block is the degree
    entry of row 256 b + y of the array. -/
private theorem pay_of_rows (A : S8192x8192.Idx → EReal) (x0 : Vec Ideal S256x8192 .f32) (b : Nat)
    (hx : ∀ (p : Fin 256) (k : Fin 8192) (i : S8192x8192.Idx), (i 0).val = b * 256 + p.val → (i 1).val = k.val →
      x0 (ix2 p k) = A i)
    (y : S256x1.Idx) (i : S8192x1.Idx) (hi : (i 0).val = b * 256 + (y 0).val) :
    k0_pay1 (F := Ideal) x0 y = degArr A i := by
  obtain ⟨p, q, rfl⟩ : ∃ (p : Fin 256) (q : Fin 1), y = ix2 p q := ⟨y 0, y 1, eq_ix2 y⟩
  obtain rfl : q = 0 := Subsingleton.elim _ _
  rw [pay_apply]
  unfold degArr degK
  congr 2
  exact Finset.sum_congr rfl fun k _ => hx p k (ix2 (i 0) k) hi rfl

/-- The two windows' index maps over the grid's 32 points: the block row is the point, the block column 0. -/
private theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The block of A at point t is rows 256 t … 256 t + 255 of the array, whole. -/
private theorem rows_apply (c : Dev nD) (t : Fin cfg0.N) (p : Fin 256) (k : Fin 8192) (i : S8192x8192.Idx)
    (h0 : (i 0).val = t.val * 256 + p.val) (h1 : (i 1).val = k.val) :
    (iblk0 V c 0 t : Vec Ideal S256x8192 .f32) (ix2 p k) = V c main_arg1 i := by
  obtain ⟨e0, e1, -, -⟩ := idx_facts t
  unfold iblk0
  rw [View.read_apply]
  show V c main_arg1 (((cfg0.win 0).blk t).view.emb (ix2 p k)) = V c main_arg1 i
  congr 1
  funext a
  apply Fin.ext
  match a with
  | ⟨0, _⟩ => show win0_0.index t (0 : Fin 2) * 256 + 1 * p.val = (i 0).val; omega
  | ⟨1, _⟩ => show win0_0.index t (1 : Fin 2) * 8192 + 1 * k.val = (i 1).val; omega

/-- What point t writes back is block t of the degree vector of A. -/
private theorem flushed_eq (c : Dev nD) (t : Fin cfg0.N) :
    (dat0 (F := Ideal) V c).flushed 1 t = ((cfg0.win 1).blk t).view.read (Elt Ideal) (degArr (V c main_arg1)) := by
  show (cfg0.win 1).cut (grid0.coords t) ((dat0 (F := Ideal) V c).after 1 t) = _
  rw [after0_1]
  unfold out0_1
  rw [View.canon_unit_zero hz]
  simp only [View.ld_unit_zero (S := S256x8192) hz]
  obtain ⟨-, -, e2, e3⟩ := idx_facts t
  funext j
  rw [View.read_apply]
  refine pay_of_rows (V c main_arg1) (iblk0 V c 0 t) t.val (fun p k i h0 h1 => rows_apply V c t p k i h0 h1) _ _ ?_
  show win0_1.index t (0 : Fin 2) * 256 + 1 * (j 0).val = t.val * 256 + (j 0).val
  omega

/-- An index of the degree array is in point t's block iff each coordinate is in the block's range on its axis. -/
private theorem mem_blk (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- Every row lies in the block of the point its number divided by 256 names. -/
private theorem covered (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 32 := rfl
  refine ⟨⟨(i 0).val / 256, by omega⟩, flush0_1 _, ?_⟩
  rw [mem_blk]
  obtain ⟨-, -, e2, e3⟩ := idx_facts ⟨(i 0).val / 256, by omega⟩
  intro a
  match a with
  | ⟨0, _⟩ =>
    show win0_1.index _ (0 : Fin 2) * 256 ≤ (i 0).val ∧ (i 0).val < win0_1.index _ (0 : Fin 2) * 256 + 256
    rw [e2]; show (i 0).val / 256 * 256 ≤ (i 0).val ∧ (i 0).val < (i 0).val / 256 * 256 + 256
    omega
  | ⟨1, _⟩ =>
    show win0_1.index _ (1 : Fin 2) * 1 ≤ (i 1).val ∧ (i 1).val < win0_1.index _ (1 : Fin 2) * 1 + 1
    rw [e3]; omega

/-- The degree vector after the region, entry by entry. -/
theorem final0 (c : Dev nD) (r : Fin 8192) :
    ((dat0 (F := Ideal) V c).arrAt 1 cfg0.N : Vec Ideal S8192x1 .f32) (ix2 r (0 : Fin 1)) = degK (V c main_arg1) r :=
  congrFun ((dat0 (F := Ideal) V c).arrAt_eq_of_cover 1 (degArr (V c main_arg1)) (fun t _ => flushed_eq V c t) covered)
    (ix2 r (0 : Fin 1))

end Cert.KernelIdeal.Hand

end
-- ==== Proof.KI.Val1.lean ====
/-
  The array S = X W the second region leaves, at the ideal instance: entry (r, f) is the contraction of row r of X
  with column f of W (the matrix unit's product onto a zero accumulator is the plain sum; the narrowing of the
  operands to bf16 is the identity there). Point t writes rows 2048 t … 2048 t + 2047; the 4 blocks cover the array.
-/
import proofs.«116911_j17403207483981_1_alg».proof.Proof.KI.Reg1
import proofs.«116911_j17403207483981_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GcnSpec

/-! ## The matrix unit's product at an index -/

/-- The two zero offsets of a whole block, as the constant function. -/
private theorem zero_offsets : (![0, 0] : Fin 2 → Nat) = fun _ => 0 :=
  funext fun a => by match a with | ⟨0, _⟩ => rfl | ⟨1, _⟩ => rfl

/-- The left operand is read at the output's row … -/
private theorem lhs_row (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- … and the contracted feature; -/
private theorem lhs_feature (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- the right operand at the contracted feature … -/
private theorem rhs_feature (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- … and the output's column. -/
private theorem rhs_col (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product block at (p, f): row p of the block of X against column f of W, summed over the 256 input
    features. The narrowing of both operands is the identity and the accumulator is zero. -/
private theorem product_apply (x0 : Vec Ideal S2048x256 .f32) (x1 : Vec Ideal S256x256 .f32) (p : Fin 2048) (f : Fin 256) :
    k1_pay1 (F := Ideal) x0 x1 (ix2 p f) = ∑ k : Fin 256, x0 (ix2 p k) * x1 (ix2 k f) := by
  unfold k1_pay1
  refine (Ideal.matmul_constant_zero_apply dot_S2048x256_S256x256_S2048x256_1_0_0_1_n_n none _ _ (ix2 p f)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p f) ((contrEquiv1 dot_S2048x256_S256x256_S2048x256_1_0_0_1_n_n 256 rfl rfl).symm k) = ix2 p k := funext fun a => Fin.ext (by
    match a with
    | ⟨0, _⟩ => exact lhs_row _ _
    | ⟨1, _⟩ => exact (lhs_feature _ _).trans hk)
  have er : dot_S2048x256_S256x256_S2048x256_1_0_0_1_n_n.rhsIdx (ix2 p f) ((contrEquiv1 dot_S2048x256_S256x256_S2048x256_1_0_0_1_n_n 256 rfl rfl).symm k) = ix2 k f := funext fun a => Fin.ext (by
    match a with
    | ⟨0, _⟩ => exact (rhs_feature _ _).trans hk
    | ⟨1, _⟩ => exact rhs_col _ _)
  rw [el, er]
  rfl

variable (V : (c : Dev nD) → (b : Ref sig .tc) → Buf (Elt Ideal) ((c : Thread nD τ).loc b))

/-! ## The blocks as parts of the arrays -/

/-- The index maps at the 4 points: the blocks of X and of S at point t are block row t, W's block is the
    whole of W at every point. -/
private theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row of S is some point's. -/
private theorem block_row_onto : ∀ q : Fin 4, ∃ t : Fin cfg1.N, win1_2.index t = ![q.val, 0] :=
  (by decide +kernel : ∀ q : Fin 4, ∃ t : Fin grid1.N, win1_2.index t = ![q.val, 0])

/-- Row p of point t's block of X is row 2048 t + p of X. -/
private theorem xblock_apply (c : Dev nD) (t : Fin cfg1.N) (p : Fin 2048) (k : Fin 256) (r : Fin 8192)
    (hr : r.val = 2048 * t.val + p.val) :
    (iblk1 V c 0 t : Vec Ideal S2048x256 .f32) (ix2 p k) = (V c main_arg0 : Vec Ideal S8192x256 .f32) (ix2 r k) := by
  obtain ⟨e0, e1, -, -, -, -⟩ := block_index t
  unfold iblk1
  rw [View.read_apply]
  show (V c main_arg0 : Vec Ideal S8192x256 .f32) _ = _
  congr 1
  funext a
  apply Fin.ext
  match a with
  | ⟨0, _⟩ => show win1_0.index t (0 : Fin 2) * 2048 + 1 * p.val = r.val; rw [e0, hr]; omega
  | ⟨1, _⟩ => show win1_0.index t (1 : Fin 2) * 256 + 1 * k.val = k.val; rw [e1]; omega

/-- W's block at every point is W. -/
private theorem wblock_apply (c : Dev nD) (t : Fin cfg1.N) (k : Fin 256) (f : Fin 256) :
    (iblk1 V c 1 t : Vec Ideal S256x256 .f32) (ix2 k f) = (V c main_arg2 : Vec Ideal S256x256 .f32) (ix2 k f) := by
  obtain ⟨-, -, e0, e1, -, -⟩ := block_index t
  unfold iblk1
  rw [View.read_apply]
  show (V c main_arg2 : Vec Ideal S256x256 .f32) _ = _
  congr 1
  funext a
  apply Fin.ext
  match a with
  | ⟨0, _⟩ => show win1_1.index t (0 : Fin 2) * 256 + 1 * k.val = k.val; rw [e0]; omega
  | ⟨1, _⟩ => show win1_1.index t (1 : Fin 2) * 256 + 1 * f.val = f.val; rw [e1]; omega

/-! ## From the blocks to the array -/

/-- S as one function of X and W: entry (r, f) is the contraction of row r of X with column f of W. -/
private abbrev supportArr (x : Vec Ideal S8192x256 .f32) (w : Vec Ideal S256x256 .f32) : Vec Ideal S8192x256 .f32 :=
  fun i => support x w (i 0) (i 1)

/-- Entry (p, f) of the block point t leaves is entry (2048 t + p, f) of S. -/
private theorem product_block (c : Dev nD) (t : Fin cfg1.N) (p : Fin 2048) (f : Fin 256) (r : Fin 8192)
    (hr : r.val = 2048 * t.val + p.val) :
    k1_pay1 (F := Ideal) (iblk1 V c 0 t) (iblk1 V c 1 t) (ix2 p f) = support (V c main_arg0) (V c main_arg2) r f := by
  refine (product_apply (iblk1 V c 0 t) (iblk1 V c 1 t) p f).trans ?_
  unfold support
  refine Finset.sum_congr rfl fun k _ => ?_
  rw [xblock_apply V c t p k r hr, wblock_apply V c t k f]

/-- What point t writes back is its block of S. -/
private theorem flushed_eq (c : Dev nD) (t : Fin cfg1.N) :
    (dat1 (F := Ideal) V c).flushed 2 t
      = ((cfg1.win 2).blk t).view.read (Elt Ideal) (supportArr (V c main_arg0) (V c main_arg2)) := by
  show (cfg1.win 2).cut (grid1.coords t) ((dat1 V c).after 2 t) = _
  rw [after1_2]
  unfold out1_2
  rw [View.canon_unit_zero zero_offsets]
  simp only [View.ld_unit_zero (S := S2048x256) zero_offsets, View.ld_unit_zero (S := S256x256) zero_offsets]
  obtain ⟨-, -, -, -, e0, e1⟩ := block_index t
  funext j
  obtain ⟨p, f, rfl⟩ : ∃ (p : Fin 2048) (f : Fin 256), j = ix2 p f := ⟨j 0, j 1, eq_ix2 j⟩
  have ht : t.val < 4 := t.isLt
  refine (product_block V c t p f ⟨2048 * t.val + p.val, by omega⟩ rfl).trans ?_
  rw [View.read_apply]
  show support (V c main_arg0) (V c main_arg2) _ _ = support (V c main_arg0) (V c main_arg2) _ _
  congr 1
  · apply Fin.ext
    show 2048 * t.val + p.val = win1_2.index t (0 : Fin 2) * 2048 + 1 * p.val
    rw [e0]; omega
  · apply Fin.ext
    show f.val = win1_2.index t (1 : Fin 2) * 256 + 1 * f.val
    rw [e1]; omega

/-- An index of S is in point t's block iff each coordinate is in the block's range on its axis. -/
private theorem mem_block (t : Fin cfg1.N) (i : S8192x256.Idx) :
    i ∈ ((cfg1.win 2).blk t).view.set ↔ ∀ a : Fin 2, win1_2.index t a * S2048x256.size a ≤ (i a).val
      ∧ (i a).val < win1_2.index t a * S2048x256.size a + S2048x256.size a := by
  show i ∈ ((View.whole main_v1).slice (win1_2.rect t)).set ↔ _
  rw [View.set_slice_whole, Rect.mem_set_unit]
  exact Iff.rfl

/-- Row r lies in the block of point r / 2048: the 4 blocks cover S. -/
private theorem covered (i : S8192x256.Idx) :
    ∃ t : Fin cfg1.N, (cfg1.win 2).flush t = true ∧ i ∈ ((cfg1.win 2).blk t).view.set := by
  have hi0 : (i 0).val < 8192 := (i 0).isLt
  have hi1 : (i 1).val < 256 := (i 1).isLt
  obtain ⟨t, ht⟩ := block_row_onto ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 256 ≤ (i 1).val ∧ (i 1).val < win1_2.index t (1 : Fin 2) * 256 + 256; omega

/-- S after the region, entry by entry. -/
theorem final1 (c : Dev nD) (r : Fin 8192) (f : Fin 256) :
    ((dat1 (F := Ideal) V c).arrAt 2 cfg1.N : Vec Ideal S8192x256 .f32) (ix2 r f) = support (V c main_arg0) (V c main_arg2) r f :=
  congrFun ((dat1 (F := Ideal) V c).arrAt_eq_of_cover 2 (supportArr (V c main_arg0) (V c main_arg2))
    (fun t _ => flushed_eq V c t) covered) (ix2 r f)

end Cert.KernelIdeal.Hand

end
-- ==== Proof.KI.Val2.lean ====
/-
  The output array the third region leaves, at the ideal instance, as a function of the five arrays it reads (A,
  S, the column d of row factors, the row dᵀ of column factors, the bias row): entry (r, f) is the contraction over
  all 8192 columns c of ((d_r A_rc) dᵀ_c) S_cf, plus (d_r d_r) S_rf, plus the bias. Along a row tile the accumulator
  after column tile k holds the contraction over the columns of tiles 0 … k (plus the diagonal term once k has
  reached the row tile's own number), by induction on k: each point adds its 1024 columns' share onto what the
  point before left, the first after resetting to zero; sums on the extended reals commute and associate, so the
  order of accumulation does not matter. The last column tile writes the accumulator plus the bias to the rows
  of the tile; the 8 written blocks cover the array.
-/
import proofs.«116911_j17403207483981_1_alg».proof.Proof.KI.Reg2Dat
import proofs.«116911_j17403207483981_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GcnSpec

variable (V : (c : Dev nD) → (b : Ref sig .tc) → Buf (Elt Ideal) ((c : Thread nD τ).loc b))

/-- The region's result as one function of the arrays it reads. -/
def out2 (adj : Vec Ideal S8192x8192 .f32) (s : Vec Ideal S8192x256 .f32) (d : Vec Ideal S8192x1 .f32)
    (dt : Vec Ideal S1x8192 .f32) (b2 : Vec Ideal S1x256 .f32) (r : Fin 8192) (f : Fin 256) : EReal :=
  (∑ c : Fin 8192, ((d (ix2 r (0 : Fin 1)) * adj (ix2 r c)) * dt (ix2 (0 : Fin 1) c)) * s (ix2 c f))
    + (d (ix2 r (0 : Fin 1)) * d (ix2 r (0 : Fin 1))) * s (ix2 r f) + b2 (ix2 (0 : Fin 1) f)

/-- An `[a, 1]` column broadcast to `[a, b]` reads, at `(p, c)`, the operand's row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset value is the zero block. -/
private theorem pay1_apply (p : Fin 1024) (f : Fin 256) : (k2_pay1 (F := Ideal)) (ix2 p f) = 0 := by
  unfold k2_pay1
  refine (congrFun (shapeCast_self _ _) (ix2 p f)).trans ?_
  exact Ideal.ofBits_zero_f32

private theorem pay2_eq (x2 : FVec Ideal S1024x1 .f32) : k2_pay2 x2 = x2 := by
  unfold k2_pay2
  exact shapeCast_self _ _

private theorem pay5_apply (s : FVec Ideal S1024x256 .f32) (b : FVec Ideal S1x256 .f32) (p : Fin 1024) (f : Fin 256) :
    k2_pay5 s b (ix2 p f) = s (ix2 p f) + b (ix2 (0 : Fin 1) f) := by
  unfold k2_pay5
  show s (ix2 p f) + broadcastTo S1024x256 (shapeCast S1x256 b shapeCasts_S1x256_S1x256) broadcasts_S1x256_S1024x256 (ix2 p f) = _
  refine congrArg (s (ix2 p f) + ·) ?_
  refine (broadcastTo_1b_ab_apply _ _ p f).trans ?_
  exact congrFun (shapeCast_self _ _) _

private theorem pay4_apply (x2 : FVec Ideal S1024x1 .f32) (s1 x1 : FVec Ideal S1024x256 .f32) (p : Fin 1024) (f : Fin 256) :
    k2_pay4 x2 s1 x1 (ix2 p f) = s1 (ix2 p f) + (x2 (ix2 p (0 : Fin 1)) * x2 (ix2 p (0 : Fin 1))) * x1 (ix2 p f) := by
  unfold k2_pay4
  refine (congrFun (shapeCast_self _ _) (ix2 p f)).trans ?_
  rw [pay2_eq]
  show s1 (ix2 p f) + broadcastTo S1024x256 (mulf (F := Ideal) x2 x2) broadcasts_S1024x1_S1024x256 (ix2 p f) * shapeCast S1024x256 x1 shapeCasts_S1024x256_S1024x256 (ix2 p f) = _
  refine congrArg (s1 (ix2 p f) + ·) ?_
  refine congrArg₂ (· * ·) ?_ ?_
  · exact broadcastTo_a1_ab_apply _ _ p f
  · exact congrFun (shapeCast_self _ _) _

/-! ## The product of the scaled block with the block of S, at an index -/

private theorem lhs_mm_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
private theorem lhs_mm_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
private theorem rhs_mm_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
private theorem rhs_mm_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The block product onto the zero accumulator, entry (p, f): the contraction over the block's 1024 columns. -/
private theorem mm_apply (L : FVec Ideal S1024x1024 .bf16) (R : FVec Ideal S1024x256 .bf16) (p : Fin 1024) (f : Fin 256) :
    FloatOps.matmul dot_S1024x1024_S1024x256_S1024x256_1_0_0_1_n_n none L R (constant (F := Ideal) S1024x256 .f32 0x00000000#32) (ix2 p f)
      = ∑ k : Fin 1024, L (ix2 p k) * R (ix2 k f) := by
  refine (Ideal.matmul_constant_zero_apply dot_S1024x1024_S1024x256_S1024x256_1_0_0_1_n_n none L R (ix2 p f)).trans ?_
  rw [← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p f) ((ValueIdx.contrEquiv1 dot_S1024x1024_S1024x256_S1024x256_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x256_S1024x256_1_0_0_1_n_n.rhsIdx (ix2 p f) ((ValueIdx.contrEquiv1 dot_S1024x1024_S1024x256_S1024x256_1_0_0_1_n_n 1024 rfl rfl).symm k) = ix2 k f := funext fun a => Fin.ext (by
    match a with
    | ⟨0, _⟩ => exact (rhs_mm_0 _ _).trans hk
    | ⟨1, _⟩ => exact rhs_mm_1 _ _)
  rw [el, er]

/-- The accumulating step at entry (p, f): what was there plus the contraction, over the block's columns c', of
    ((d_p A_pc') dᵀ_c') S_c'f. -/
private theorem pay3_apply (x0 : FVec Ideal S1024x1024 .f32) (x2 : FVec Ideal S1024x1 .f32) (x3 : FVec Ideal S1x1024 .f32)
    (x1 s : FVec Ideal S1024x256 .f32) (p : Fin 1024) (f : Fin 256) :
    k2_pay3 x0 x2 x3 x1 s (ix2 p f)
      = s (ix2 p f) + ∑ k : Fin 1024, ((x2 (ix2 p (0 : Fin 1)) * x0 (ix2 p k)) * x3 (ix2 (0 : Fin 1) k)) * x1 (ix2 k f) := by
  unfold k2_pay3
  refine (congrFun (shapeCast_self _ _) (ix2 p f)).trans ?_
  rw [pay2_eq]
  show s (ix2 p f) + FloatOps.matmul dot_S1024x1024_S1024x256_S1024x256_1_0_0_1_n_n none
      (truncf .bf16 (mulf (F := Ideal) (mulf (F := Ideal) (broadcastTo S1024x1024 x2 broadcasts_S1024x1_S1024x1024) x0)
        (broadcastTo S1024x1024 (shapeCast S1x1024 x3 shapeCasts_S1x1024_S1x1024) broadcasts_S1x1024_S1024x1024)) bitsLt_bf16_f32)
      (truncf .bf16 (shapeCast S1024x256 x1 shapeCasts_S1024x256_S1024x256) bitsLt_bf16_f32)
      (constant (F := Ideal) S1024x256 .f32 0x00000000#32) (ix2 p f) = _
  refine congrArg (s (ix2 p f) + ·) ?_
  refine (mm_apply _ _ p f).trans ?_
  refine Finset.sum_congr rfl fun k _ => ?_
  show ((broadcastTo S1024x1024 x2 broadcasts_S1024x1_S1024x1024 (ix2 p k) * x0 (ix2 p k))
      * broadcastTo S1024x1024 (shapeCast S1x1024 x3 shapeCasts_S1x1024_S1x1024) broadcasts_S1x1024_S1024x1024 (ix2 p k))
      * shapeCast S1024x256 x1 shapeCasts_S1024x256_S1024x256 (ix2 k f) = _
  refine congrArg₂ (· * ·) (congrArg₂ (· * ·) (congrArg₂ (· * ·) ?_ rfl) ?_) ?_
  · exact broadcastTo_a1_ab_apply _ _ p k
  · refine (broadcastTo_1b_ab_apply _ _ p k).trans ?_
    exact congrFun (shapeCast_self _ _) _
  · exact congrFun (shapeCast_self _ _) _

/-! ## The blocks, read off their arrays -/

/-- The five arrays the region reads, at their literal types. -/
private abbrev arrA (c : Dev nD) : FVec Ideal S8192x8192 .f32 := V c main_arg1
private abbrev arrS (c : Dev nD) : FVec Ideal S8192x256 .f32 := V c main_v1
private abbrev arrD (c : Dev nD) : FVec Ideal S8192x1 .f32 := V c main_v0
private abbrev arrDt (c : Dev nD) : FVec Ideal S1x8192 .f32 := V c main_v2
private abbrev arrB (c : Dev nD) : FVec Ideal S1x256 .f32 := V c main_v3

/-- The block indices at point t = 8 i + k: A's block is (i, k), S's (k, 0), the row factors' (i, 0), the column
    factors' (0, k), the bias row's (0, 0), the output's (i, 0). -/
private theorem idx2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = 0 ∧ win2_4.index t (1 : Fin 2) = 0
    ∧ win2_5.index t (0 : Fin 2) = t.val / 8 ∧ win2_5.index t (1 : Fin 2) = 0 :=
  (by decide +kernel : ∀ t : Fin grid2.N, _)

/-- A's block (i, k), entry (p, j), is A at row 1024 i + p, column 1024 k + j. -/
private theorem blkA_apply (c : Dev nD) (t : Fin cfg2.N) (p k : Fin 1024) (r cc : Fin 8192)
    (hr : r.val = 1024 * (t.val / 8) + p.val) (hc : cc.val = 1024 * (t.val % 8) + k.val) :
    blkA V c t (ix2 p k) = arrA V c (ix2 r cc) := by
  obtain ⟨e0, e1, -⟩ := idx2 t
  show V c main_arg1 (((cfg2.win 0).blk t).view.emb (ix2 p k)) = V c main_arg1 (ix2 r cc)
  refine congrArg (V c main_arg1) (funext fun a => Fin.ext ?_)
  match a with
  | ⟨0, _⟩ => show win2_0.index t (0 : Fin 2) * 1024 + 1 * p.val = r.val; omega
  | ⟨1, _⟩ => show win2_0.index t (1 : Fin 2) * 1024 + 1 * k.val = cc.val; omega

/-- S's block (k, 0), entry (j, f), is S at row 1024 k + j. -/
private theorem blkS_apply (c : Dev nD) (t : Fin cfg2.N) (k : Fin 1024) (f : Fin 256) (cc : Fin 8192)
    (hc : cc.val = 1024 * (t.val % 8) + k.val) :
    blkS V c t (ix2 k f) = arrS V c (ix2 cc f) := by
  obtain ⟨-, -, e0, e1, -⟩ := idx2 t
  show V c main_v1 (((cfg2.win 1).blk t).view.emb (ix2 k f)) = V c main_v1 (ix2 cc f)
  refine congrArg (V c main_v1) (funext fun a => Fin.ext ?_)
  match a with
  | ⟨0, _⟩ => show win2_1.index t (0 : Fin 2) * 1024 + 1 * k.val = cc.val; omega
  | ⟨1, _⟩ => show win2_1.index t (1 : Fin 2) * 256 + 1 * f.val = f.val; omega

/-- The row factors' block (i, 0), entry (p, 0), is d at row 1024 i + p. -/
private theorem blkDr_apply (c : Dev nD) (t : Fin cfg2.N) (p : Fin 1024) (r : Fin 8192)
    (hr : r.val = 1024 * (t.val / 8) + p.val) :
    blkDr V c t (ix2 p (0 : Fin 1)) = arrD V c (ix2 r (0 : Fin 1)) := by
  obtain ⟨-, -, -, -, e0, e1, -⟩ := idx2 t
  show V c main_v0 (((cfg2.win 2).blk t).view.emb (ix2 p (0 : Fin 1))) = V c main_v0 (ix2 r (0 : Fin 1))
  refine congrArg (V c main_v0) (funext fun a => Fin.ext ?_)
  match a with
  | ⟨0, _⟩ => show win2_2.index t (0 : Fin 2) * 1024 + 1 * p.val = r.val; omega
  | ⟨1, _⟩ => show win2_2.index t (1 : Fin 2) * 1 + 1 * 0 = 0; omega

/-- The column factors' block (0, k), entry (0, j), is dᵀ at column 1024 k + j. -/
private theorem blkDc_apply (c : Dev nD) (t : Fin cfg2.N) (k : Fin 1024) (cc : Fin 8192)
    (hc : cc.val = 1024 * (t.val % 8) + k.val) :
    blkDc V c t (ix2 (0 : Fin 1) k) = arrDt V c (ix2 (0 : Fin 1) cc) := by
  obtain ⟨-, -, -, -, -, -, e0, e1, -⟩ := idx2 t
  show V c main_v2 (((cfg2.win 3).blk t).view.emb (ix2 (0 : Fin 1) k)) = V c main_v2 (ix2 (0 : Fin 1) cc)
  refine congrArg (V c main_v2) (funext fun a => Fin.ext ?_)
  match a with
  | ⟨0, _⟩ => show win2_3.index t (0 : Fin 2) * 1 + 1 * 0 = 0; omega
  | ⟨1, _⟩ => show win2_3.index t (1 : Fin 2) * 1024 + 1 * k.val = cc.val; omega

/-- The bias row's one block is the bias row. -/
private theorem blkB_apply (c : Dev nD) (t : Fin cfg2.N) (f : Fin 256) :
    blkB V c t (ix2 (0 : Fin 1) f) = arrB V c (ix2 (0 : Fin 1) f) := by
  obtain ⟨-, -, -, -, -, -, -, -, e0, e1, -⟩ := idx2 t
  show V c main_v3 (((cfg2.win 4).blk t).view.emb (ix2 (0 : Fin 1) f)) = V c main_v3 (ix2 (0 : Fin 1) f)
  refine congrArg (V c main_v3) (funext fun a => Fin.ext ?_)
  match a with
  | ⟨0, _⟩ => show win2_4.index t (0 : Fin 2) * 1 + 1 * 0 = 0; omega
  | ⟨1, _⟩ => show win2_4.index t (1 : Fin 2) * 256 + 1 * f.val = f.val; omega

/-! ## The body's step at an entry -/

/-- The accumulator after the body at entry (p, f), from the blocks and what was there: reset to zero on the first
    column tile, plus the tile's contraction, plus the diagonal term on the diagonal tile. -/
private theorem scrNext_apply (i : grid2.Coords) (x0 : FVec Ideal S1024x1024 .f32) (x1 : FVec Ideal S1024x256 .f32)
    (x2 : FVec Ideal S1024x1 .f32) (x3 : FVec Ideal S1x1024 .f32) (xs : FVec Ideal S1024x256 .f32) (p : Fin 1024) (f : Fin 256) :
    scrNext (F := Ideal) i x0 x1 x2 x3 xs (ix2 p f)
      = ((if cond2_1 i then 0 else xs (ix2 p f))
          + ∑ k : Fin 1024, ((x2 (ix2 p (0 : Fin 1)) * x0 (ix2 p k)) * x3 (ix2 (0 : Fin 1) k)) * x1 (ix2 k f))
        + (if cond2_2 i then (x2 (ix2 p (0 : Fin 1)) * x2 (ix2 p (0 : Fin 1))) * x1 (ix2 p f) else 0) := by
  unfold scrNext
  by_cases h1 : cond2_1 i <;> by_cases h2 : cond2_2 i
  · simp only [if_pos h1, if_pos h2]
    rw [pay4_apply, pay3_apply, pay1_apply]
  · simp only [if_pos h1, if_neg h2]
    rw [pay3_apply, pay1_apply, add_zero]
  · simp only [if_neg h1, if_pos h2]
    rw [pay4_apply, pay3_apply]
  · simp only [if_neg h1, if_neg h2]
    rw [pay3_apply, add_zero]

/-! ## A contraction over 8192 columns, tile by tile -/

/-- Column tile k's share of a sum over the 8192 columns (nothing past the eighth tile). -/
private def tileSum (g : Fin 8192 → EReal) (k : ℕ) : EReal :=
  if h : k < 8 then ∑ j : Fin 1024, g ⟨1024 * k + j.val, by have := j.isLt; omega⟩ else 0

private theorem tileSum_of_lt (g : Fin 8192 → EReal) (k : ℕ) (h : k < 8) :
    tileSum g k = ∑ j : Fin 1024, g ⟨1024 * k + j.val, by have := j.isLt; omega⟩ := by
  unfold tileSum; rw [dif_pos h]

/-- The eight tiles' shares make up the whole sum. -/
private theorem sum_tiles (g : Fin 8192 → EReal) : ∑ k ∈ Finset.range 8, tileSum g k = ∑ c : Fin 8192, g c := by
  rw [Finset.sum_range]
  have e : ∀ k : Fin 8, tileSum g k.val = ∑ j : Fin 1024, g (finProdFinEquiv (k, j)) := by
    intro k
    rw [tileSum_of_lt g k.val k.isLt]
    refine Finset.sum_congr rfl fun j _ => congrArg g (Fin.ext ?_)
    show 1024 * k.val + j.val = j.val + 1024 * k.val
    omega
  rw [Finset.sum_congr rfl fun k _ => e k, ← Fintype.sum_prod_type (f := fun x : Fin 8 × Fin 1024 => g (finProdFinEquiv x))]
  exact Equiv.sum_comp (finProdFinEquiv : Fin 8 × Fin 1024 ≃ Fin 8192) g

/-! ## Along a row tile -/

/-- Column cc's share of entry (r, f) of the contraction: ((d_r A_r,cc) dᵀ_cc) S_cc,f. -/
private def share (c : Dev nD) (r : Fin 8192) (f : Fin 256) (cc : Fin 8192) : EReal :=
  ((arrD V c (ix2 r (0 : Fin 1)) * arrA V c (ix2 r cc)) * arrDt V c (ix2 (0 : Fin 1) cc)) * arrS V c (ix2 cc f)

/-- The identity's share of entry (r, f): (d_r d_r) S_rf. -/
private def diag (c : Dev nD) (r : Fin 8192) (f : Fin 256) : EReal :=
  (arrD V c (ix2 r (0 : Fin 1)) * arrD V c (ix2 r (0 : Fin 1))) * arrS V c (ix2 r f)

/-- The step at point t = 8 i + k, entry (p, f) of the accumulator, which is row r = 1024 i + p of the result: zero
    or what was there, plus tile k's share, plus the identity's share when k = i. -/
private theorem step_apply (c : Dev nD) (t : Fin cfg2.N) (xs : FVec Ideal S1024x256 .f32) (p : Fin 1024) (f : Fin 256)
    (r : Fin 8192) (hr : r.val = 1024 * (t.val / 8) + p.val) :
    scrNext (F := Ideal) (grid2.coords t) (blkA V c t) (blkS V c t) (blkDr V c t) (blkDc V c t) xs (ix2 p f)
      = ((if t.val % 8 = 0 then 0 else xs (ix2 p f)) + tileSum (share V c r f) (t.val % 8))
        + (if t.val / 8 = t.val % 8 then diag V c r f else 0) := by
  have ht : t.val < 64 := by have h1 := t.isLt; have h2 : cfg2.N = 64 := N_2; omega
  rw [scrNext_apply, tileSum_of_lt _ _ (Nat.mod_lt _ (by decide))]
  have hd := blkDr_apply V c t p r hr
  refine congrArg₂ (· + ·) (congrArg₂ (· + ·) ?_ ?_) ?_
  · exact if_congr (hcond2_1 t) rfl rfl
  · refine Finset.sum_congr rfl fun k _ => ?_
    unfold share
    rw [hd, blkA_apply V c t p k r ⟨1024 * (t.val % 8) + k.val, by have := k.isLt; omega⟩ hr rfl,
      blkDc_apply V c t k ⟨1024 * (t.val % 8) + k.val, by have := k.isLt; omega⟩ rfl,
      blkS_apply V c t k f ⟨1024 * (t.val % 8) + k.val, by have := k.isLt; omega⟩ rfl]
  · have h2 : cond2_2 (grid2.coords t) ↔ t.val / 8 = t.val % 8 := (hcond2_2 t).trans (by omega)
    by_cases h : t.val / 8 = t.val % 8
    · rw [if_pos (h2.mpr h), if_pos h]
      unfold diag
      rw [hd, blkS_apply V c t p f r (by rw [← h]; exact hr)]
    · rw [if_neg (fun h' => h (h2.mp h')), if_neg h]

/-- The accumulator after point n is the step applied to what the point before left (at the first point, to anything). -/
private theorem scrAt_step (c : Dev nD) : ∀ (n : ℕ) (hn : n < cfg2.N), ∃ xs : FVec Ideal S1024x256 .f32,
    scrAt (F := Ideal) V c n hn = scrNext (grid2.coords ⟨n, hn⟩) (blkA V c ⟨n, hn⟩) (blkS V c ⟨n, hn⟩) (blkDr V c ⟨n, hn⟩) (blkDc V c ⟨n, hn⟩) xs
      ∧ ∀ (m : ℕ) (hm : m < cfg2.N), m + 1 = n → xs = scrAt (F := Ideal) V c m hm
  | 0, hn => ⟨k2_pay1 (F := Ideal), rfl, fun m hm h => absurd h (Nat.succ_ne_zero m)⟩
  | n + 1, hn => ⟨scrAt (F := Ideal) V c n (Nat.lt_of_succ_lt hn), rfl, fun m hm h => by
      have e : m = n := by omega
      subst e; rfl⟩

/-- Along row tile i, after column tile k entry (p, f) of the accumulator holds the shares of tiles 0 … k of row
    r = 1024 i + p, and the identity's share once k has reached i. -/
private theorem scrAt_apply (c : Dev nD) (i : ℕ) (hi : i < 8) :
    ∀ (k : ℕ) (hk : k < 8) (hn : 8 * i + k < cfg2.N) (p : Fin 1024) (f : Fin 256) (r : Fin 8192), r.val = 1024 * i + p.val →
      scrAt (F := Ideal) V c (8 * i + k) hn (ix2 p f)
        = (∑ k' ∈ Finset.range (k + 1), tileSum (share V c r f) k') + (if i ≤ k then diag V c r f else 0)
  | 0, hk, hn, p, f, r, hr => by
    have hdiv : (8 * i + 0) / 8 = i := by omega
    have hmod : (8 * i + 0) % 8 = 0 := by omega
    obtain ⟨xs, hxs, -⟩ := scrAt_step V c (8 * i + 0) hn
    rw [hxs, step_apply V c ⟨8 * i + 0, hn⟩ xs p f r (by show r.val = 1024 * ((8 * i + 0) / 8) + p.val; rw [hdiv]; exact hr)]
    show ((if (8 * i + 0) % 8 = 0 then 0 else _) + tileSum _ ((8 * i + 0) % 8)) + (if (8 * i + 0) / 8 = (8 * i + 0) % 8 then _ else 0) = _
    rw [hdiv, hmod, if_pos rfl, zero_add, Finset.sum_range_one]
    exact congrArg _ (if_congr (by omega) rfl rfl)
  | k + 1, hk, hn, p, f, r, hr => by
    have hdiv : (8 * i + (k + 1)) / 8 = i := by omega
    have hmod : (8 * i + (k + 1)) % 8 = k + 1 := by omega
    obtain ⟨xs, hxs, hprev⟩ := scrAt_step V c (8 * i + (k + 1)) hn
    have hx := hprev (8 * i + k) (by omega) rfl
    rw [hxs, step_apply V c ⟨8 * i + (k + 1), hn⟩ xs p f r (by show r.val = 1024 * ((8 * i + (k + 1)) / 8) + p.val; rw [hdiv]; exact hr)]
    show ((if (8 * i + (k + 1)) % 8 = 0 then 0 else _) + tileSum _ ((8 * i + (k + 1)) % 8)) + (if (8 * i + (k + 1)) / 8 = (8 * i + (k + 1)) % 8 then _ else 0) = _
    rw [hdiv, hmod, if_neg (Nat.succ_ne_zero k), hx, scrAt_apply c i hi k (by omega) (by omega) p f r hr,
      Finset.sum_range_succ _ (k + 1)]
    by_cases h1 : i ≤ k
    · rw [if_pos h1, if_neg (by omega), if_pos (by omega), add_zero, add_right_comm]
    · rw [if_neg h1, add_zero]
      by_cases h2 : i = k + 1
      · rw [if_pos h2, if_pos (by omega)]
      · rw [if_neg h2, if_neg (by omega)]

/-! ## What the last column tile writes back, and the whole array -/

private theorem scrAt_congr (c : Dev nD) (a b : ℕ) (ha : a < cfg2.N) (hb : b < cfg2.N) (h : a = b) :
    scrAt (F := Ideal) V c a ha = scrAt (F := Ideal) V c b hb := by
  subst h; rfl

/-- The region's result, as one array. -/
private def outArr (c : Dev nD) : FVec Ideal S8192x256 .f32 := fun i =>
  out2 (V c main_arg1) (V c main_v1) (V c main_v0) (V c main_v2) (V c main_v3) (i 0) (i 1)

/-- On the last column tile of row tile i the written block's entry (p, f) is the result's entry (1024 i + p, f): all
    eight tiles' shares, the identity's share, the bias. -/
private theorem written_apply (c : Dev nD) (t : Fin cfg2.N) (h7 : t.val % 8 = 7) (p : Fin 1024) (f : Fin 256) (r : Fin 8192)
    (hr : r.val = 1024 * (t.val / 8) + p.val) :
    k2_pay5 (scrAt (F := Ideal) V c t.val t.isLt) (blkB V c t) (ix2 p f)
      = out2 (V c main_arg1) (V c main_v1) (V c main_v0) (V c main_v2) (V c main_v3) r f := by
  have ht : t.val < 64 := by have h1 := t.isLt; have h2 : cfg2.N = 64 := N_2; omega
  have hN : cfg2.N = 64 := N_2
  rw [pay5_apply, blkB_apply,
    scrAt_congr V c t.val (8 * (t.val / 8) + 7) t.isLt (by omega) (by omega),
    scrAt_apply V c (t.val / 8) (by omega) 7 (by decide) (by omega) p f r hr, sum_tiles, if_pos (by omega)]
  rfl

/-- What a writing point writes back is its block of the result array. -/
private theorem flushed_eq (c : Dev nD) (t : Fin cfg2.N) (hf : (cfg2.win 5).flush t = true) :
    (dat2 (F := Ideal) V c).flushed 5 t = ((cfg2.win 5).blk t).view.read (Elt Ideal) (outArr V c) := by
  have h7 : t.val % 8 = 7 := (flush2_5 t).mp hf
  have ht : t.val < 64 := by have h1 := t.isLt; have h2 : cfg2.N = 64 := N_2; omega
  obtain ⟨-, -, -, -, -, -, -, -, -, -, e0, e1⟩ := idx2 t
  show (cfg2.win 5).cut (grid2.coords t) ((dat2 (F := Ideal) V c).after 5 t) = _
  rw [after2_5]
  refine funext fun (j : S1024x256.Idx) => ?_
  obtain ⟨p, f, rfl⟩ : ∃ (p : Fin 1024) (f : Fin 256), j = ix2 p f := ⟨j 0, j 1, eq_ix2 j⟩
  show k2_pay5 (scrAt (F := Ideal) V c t.val t.isLt) (blkB V c t) (ix2 p f)
    = outArr V c (((cfg2.win 5).blk t).view.emb (ix2 p f))
  rw [written_apply V c t h7 p f ⟨1024 * (t.val / 8) + p.val, by have := p.isLt; omega⟩ rfl]
  unfold outArr
  refine congrArg₂ (out2 (V c main_arg1) (V c main_v1) (V c main_v0) (V c main_v2) (V c main_v3)) (Fin.ext ?_) (Fin.ext ?_)
  · show 1024 * (t.val / 8) + p.val = win2_5.index t (0 : Fin 2) * 1024 + 1 * p.val; omega
  · show f.val = win2_5.index t (1 : Fin 2) * 256 + 1 * f.val; omega

/-- An index of the result array is in point t's block iff each coordinate is in the block's range on its axis. -/
private theorem mem_blk (t : Fin cfg2.N) (i : S8192x256.Idx) :
    i ∈ ((cfg2.win 5).blk t).view.set ↔ ∀ a : Fin 2, win2_5.index t a * S1024x256.size a ≤ (i a).val
      ∧ (i a).val < win2_5.index t a * S1024x256.size a + S1024x256.size a := by
  show i ∈ ((View.whole main_v4).slice (win2_5.rect t)).set ↔ _
  rw [View.set_slice_whole, Rect.mem_set_unit]
  exact Iff.rfl

/-- Row r lies in the block the last column tile of row tile r / 1024 writes. -/
private theorem cover (i : S8192x256.Idx) :
    ∃ t : Fin cfg2.N, (cfg2.win 5).flush t = true ∧ i ∈ ((cfg2.win 5).blk t).view.set := by
  have hi0 : (i 0).val < 8192 := (i 0).isLt
  have hi1 : (i 1).val < 256 := (i 1).isLt
  have hN : cfg2.N = 64 := N_2
  obtain ⟨t, htv⟩ : ∃ t : Fin cfg2.N, t.val = 8 * ((i 0).val / 1024) + 7 := ⟨⟨8 * ((i 0).val / 1024) + 7, by omega⟩, rfl⟩
  obtain ⟨-, -, -, -, -, -, -, -, -, -, e0, e1⟩ := idx2 t
  refine ⟨t, (flush2_5 t).mpr (by omega), ?_⟩
  rw [mem_blk]
  intro a
  match a with
  | ⟨0, _⟩ =>
    show win2_5.index t (0 : Fin 2) * 1024 ≤ (i 0).val ∧ (i 0).val < win2_5.index t (0 : Fin 2) * 1024 + 1024
    omega
  | ⟨1, _⟩ =>
    show win2_5.index t (1 : Fin 2) * 256 ≤ (i 1).val ∧ (i 1).val < win2_5.index t (1 : Fin 2) * 256 + 256
    omega

/-- The output array after the region, entry by entry. -/
theorem final2 (c : Dev nD) (r : Fin 8192) (f : Fin 256) :
    ((dat2 (F := Ideal) V c).arrAt 5 cfg2.N : Vec Ideal S8192x256 .f32) (ix2 r f)
      = out2 (V c main_arg1) (V c main_v1) (V c main_v0) (V c main_v2) (V c main_v3) r f := by
  have h := (dat2 (F := Ideal) V c).arrAt_eq_of_cover 5 (outArr V c) (fun t hf => flushed_eq V c t hf) cover
  exact congrFun h (ix2 r f)

end Cert.KernelIdeal.Hand

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KI.Final.lean ====
/-
  The result array at the end of the kernel's run, at the ideal instance, is the specification's `outK` of the four
  launch arguments. Region 2's result is a function of five arrays as it finds them; each is traced back through the
  fold of contents: A is the launch argument (no item writes it); S is what region 1 left, the contraction of the
  launch X and W; the column of row factors is what region 0 left, the inverse square roots of A's row sums plus
  one; the row of column factors is its transpose, so it reads the same numbers at the swapped index; the bias row
  is the bias recast as a one-row matrix.
-/
import proofs.«116911_j17403207483981_1_alg».proof.Proof.KI.Run
import proofs.«116911_j17403207483981_1_alg».proof.Proof.KI.Val0
import proofs.«116911_j17403207483981_1_alg».proof.Proof.KI.Val1
import proofs.«116911_j17403207483981_1_alg».proof.Proof.KI.Val2
import proofs.«116911_j17403207483981_1_alg».proof.Proof.LibPlainDot
import Idealize.ShloMosaic.Lib.StableHlo.Run
import proofs.«116911_j17403207483981_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.GcnSpec

variable (m : (ℓ : Loc nD τ sig) → Buf (Elt Ideal) ℓ) (ρ : Dev nD → PrngReg)

/-- Region 2 finds the column of row factors as region 0 left it. -/
theorem V3_main_v0 (c : Dev nD) : V3 m ρ c main_v0 = (dat0 (V0 m ρ) c).arrAt 1 cfg0.N := by
  have h : V3 m ρ c main_v0 = W2 m ρ c (Proc.devRef .tc main_v0) := by
    show StableHlo.after hostOps2 (W2 m ρ c) (Proc.devRef .tc main_v0) = _
    after_results
  exact h.trans ((W2_of_ne m ρ c main_v0 (by decide)).trans (W1_arr m ρ c 1))

/-- It finds S as region 1 left it. -/
theorem V3_main_v1 (c : Dev nD) : V3 m ρ c main_v1 = (dat1 (V1 m ρ) c).arrAt 2 cfg1.N := by
  have h : V3 m ρ c main_v1 = W2 m ρ c (Proc.devRef .tc main_v1) := by
    show StableHlo.after hostOps2 (W2 m ρ c) (Proc.devRef .tc main_v1) = _
    after_results
  exact h.trans (W2_arr m ρ c 2)

/-- The row of column factors is the transpose of the column of row factors. -/
theorem V3_main_v2 (c : Dev nD) :
    V3 m ρ c main_v2 = transpose S1x8192 [1, 0] (W2 m ρ c (Proc.devRef .tc main_v0)) transposes_S8192x1_S1x8192_1_0 := by
  show StableHlo.after hostOps2 (W2 m ρ c) (Proc.devRef .tc main_v2) = _
  after_results

/-- Region 1 finds X and W as launched. -/
theorem V1_main_arg0 (c : Dev nD) : V1 m ρ c main_arg0 = m ((c : Thread nD τ).loc main_arg0) :=
  W1_of_ne m ρ c main_arg0 (by decide)
theorem V1_main_arg2 (c : Dev nD) : V1 m ρ c main_arg2 = m ((c : Thread nD τ).loc main_arg2) :=
  W1_of_ne m ρ c main_arg2 (by decide)

/-- Entry q of the column of row factors. -/
theorem drow_apply (c : Dev nD) (q : Fin 8192) :
    (V3 m ρ c main_v0 : Vec Ideal S8192x1 .f32) (ix2 q (0 : Fin 1)) = degK (m ((c : Thread nD τ).loc main_arg1)) q := by
  rw [V3_main_v0]
  exact final0 (V0 m ρ) c q

/-- Entry q of the row of column factors: the same number. -/
theorem dcol_apply (c : Dev nD) (q : Fin 8192) :
    (V3 m ρ c main_v2 : Vec Ideal S1x8192 .f32) (ix2 (0 : Fin 1) q) = degK (m ((c : Thread nD τ).loc main_arg1)) q := by
  rw [V3_main_v2, Cert.LibPlainDot.transpose2_apply]
  have h : W2 m ρ c (Proc.devRef .tc main_v0) = (dat0 (V0 m ρ) c).arrAt 1 cfg0.N :=
    (W2_of_ne m ρ c main_v0 (by decide)).trans (W1_arr m ρ c 1)
  rw [h]
  exact final0 (V0 m ρ) c q

/-- Entry (q, g) of S. -/
theorem sup_apply (c : Dev nD) (q : Fin 8192) (g : Fin 256) :
    (V3 m ρ c main_v1 : Vec Ideal S8192x256 .f32) (ix2 q g)
      = support (m ((c : Thread nD τ).loc main_arg0)) (m ((c : Thread nD τ).loc main_arg2)) q g := by
  rw [V3_main_v1]
  refine (final1 (V1 m ρ) c q g).trans ?_
  rw [V1_main_arg0, V1_main_arg2]

/-- Entry g of the bias row. -/
theorem bias_apply (c : Dev nD) (g : Fin 256) :
    (V3 m ρ c main_v3 : Vec Ideal S1x256 .f32) (ix2 (0 : Fin 1) g) = (m ((c : Thread nD τ).loc main_arg3) : Vec Ideal S256 .f32) (ix1 g) := by
  have h : V3 m ρ c main_v3 = shapeCast S1x256 (W2 m ρ c (Proc.devRef .tc main_arg3)) shapeCasts_S256_S1x256 := by
    show StableHlo.after hostOps2 (W2 m ρ c) (Proc.devRef .tc main_v3) = _
    after_results
    rfl
  have h3 : W2 m ρ c (Proc.devRef .tc main_arg3) = m ((c : Thread nD τ).loc main_arg3) :=
    (W2_of_ne m ρ c main_arg3 (by decide)).trans (W1_of_ne m ρ c main_arg3 (by decide))
  rw [h, h3]
  exact shapeCast_apply _ shapeCasts_S256_S1x256 (ix2 (0 : Fin 1) g) (ix1 g) (by
    rw [Shape.rowMajor_val_one, Shape.rowMajor_val_two]
    show g.val = (0 : Nat) * 256 + g.val
    omega)

/-- The result array at the end, entry by entry. -/
theorem final (c : Dev nD) (r : Fin 8192) (f : Fin 256) :
    (W4 m ρ c (Proc.devRef .tc main_v4) : Vec Ideal S8192x256 .f32) (ix2 r f)
      = outK (m ((c : Thread nD τ).loc main_arg0)) (m ((c : Thread nD τ).loc main_arg1))
          (m ((c : Thread nD τ).loc main_arg2)) (m ((c : Thread nD τ).loc main_arg3)) r f := by
  rw [W4_main_v4]
  refine (final2 (V3 m ρ) c r f).trans ?_
  have hA : V3 m ρ c main_arg1 = m ((c : Thread nD τ).loc main_arg1) := W3_main_arg1 m ρ c
  unfold out2 outK
  rw [hA]
  have e1 := drow_apply m ρ c r
  have e3 := sup_apply m ρ c r f
  have e4 := bias_apply m ρ c f
  refine congrArg₂ (· + ·) (congrArg₂ (· + ·) (Finset.sum_congr rfl fun q _ => ?_) ?_) e4
  · exact congrArg₂ (· * ·) (congrArg₂ (· * ·) (congrArg (· * _) e1) (dcol_apply m ρ c q)) (sup_apply m ρ c q f)
  · exact congrArg₂ (· * ·) (congrArg₂ (· * ·) e1 e1) e3

end Cert.KernelIdeal.Hand

end
-- ==== Proof.RefVal.lean ====
/-
  The reference's result, read index by index from its run: out = ((d ⊙ (A + I)) ⊙ dᵀ) (X W) + b with
  d the inverse square roots of the row sums of A + I. Read one operation at a time: the identity is
  the comparison of the row and the column counters converted to a float, a row sum is the sum over the
  column, the two broadcasts of d read it at the row and at the column, the two products with the host's
  contraction are sums over the contracted axis, the bias is broadcast along the rows.
-/
import proofs.«116911_j17403207483981_1_alg».proof.Proof.Gen.ReferenceIdeal.Run
import proofs.«116911_j17403207483981_1_alg».proof.Proof.Gen.ReferenceIdeal.Read
import proofs.«116911_j17403207483981_1_alg».proof.Proof.Spec
import Idealize.ShloMosaic.Lib.ValueIdx
import Idealize.ShloMosaic.PureOps.Ideal.Laws

noncomputable section

open scoped BigOperators

namespace Cert.ReferenceIdeal.RefVal

open Cert.ReferenceIdeal Cert.ReferenceIdeal.Gen Cert.ReferenceIdeal.Read
open Idealize.ShloMosaic Idealize.ShloMosaic.ValueIdx Cert.GcnSpec

/-- Two counters below 8192 are the same 32-bit word exactly when they are the same number: both are
    below 2^32, where the word of a number determines it. -/
private theorem word_eq_iff (r c : Fin 8192) :
    BitVec.ofNat 32 r.val = BitVec.ofNat 32 c.val ↔ r = c := by
  constructor
  · intro h
    have h' := congrArg BitVec.toNat h
    rw [BitVec.toNat_ofNat, BitVec.toNat_ofNat, Nat.mod_eq_of_lt (by have := r.isLt; omega),
      Nat.mod_eq_of_lt (by have := c.isLt; omega)] at h'
    exact Fin.ext h'
  · rintro rfl
    rfl

/-- The comparison bit of the identity: the row counter plus zero against the column counter. -/
private theorem eye_bit (r c : Fin 8192) :
    IntOp.cmpi .eq (IntOp.addi (BitVec.ofNat 32 r.val) 0#32) (BitVec.ofNat 32 c.val)
      = if r = c then 1#1 else 0#1 := by
  show BitVec.ofBool (BitVec.ofNat 32 r.val + 0#32 == BitVec.ofNat 32 c.val) = _
  rw [BitVec.add_zero]
  by_cases h : r = c
  · rw [if_pos h, (word_eq_iff r c).2 h, beq_self_eq_true]
    rfl
  · rw [if_neg h, beq_eq_false_iff_ne.2 (fun e => h ((word_eq_iff r c).1 e))]
    rfl

/-- The identity matrix as the reference builds it (row counter plus zero compared with the column counter,
    the bit converted to a float) is 1 on the diagonal and 0 off it. -/
theorem eye_apply (r c : Fin 8192) :
    val_main_v5 (F := Ideal) (ix2 r c) = eye r c := by
  rw [val_main_v5_apply, val_main_v4_apply, val_main_v3_apply, val_main_v0_apply, val_main_v1_apply,
    val_main_v2_apply, val_main_c_apply]
  show ((((IntOp.cmpi .eq (IntOp.addi (BitVec.ofNat 32 r.val) 0#32) (BitVec.ofNat 32 c.val)).toNat : ℝ)) : EReal)
    = eye r c
  rw [eye_bit]
  unfold eye
  by_cases h : r = c
  · rw [if_pos h, if_pos h]
    show (((1 : ℕ) : ℝ) : EReal) = 1
    rw [Nat.cast_one, EReal.coe_one]
  · rw [if_neg h, if_neg h]
    show (((0 : ℕ) : ℝ) : EReal) = 0
    rw [Nat.cast_zero, EReal.coe_zero]

/-- A row sum of A + I, as the reference's reduction computes it from a zero initial value. -/
theorem rowsum_eq (x1 : FVec Ideal S8192x8192 .f32) (r : Fin 8192) :
    val_main_v7 (F := Ideal) x1 (ix1 r) = ∑ c : Fin 8192, (x1 (ix2 r c) + eye r c) := by
  rw [val_main_v7_apply, val_main_cst_apply, Ideal.ofBits_def, Ideal.ofBits_zero_f32, zero_add]
  refine Finset.sum_congr rfl fun c _ => ?_
  have e : idx_main_v7 (ix1 r) c = ix2 r c :=
    funext fun a => Fin.ext (by match a with | ⟨0, _⟩ => rfl | ⟨1, _⟩ => rfl)
  rw [e, val_main_v6_apply, Ideal.addf_def, eye_apply]

/-- The degree factor: the inverse square root of the row sum of A + I. -/
private theorem deg_apply (x1 : FVec Ideal S8192x8192 .f32) (r : Fin 8192) :
    val_main_v8 (F := Ideal) x1 (ix1 r) = degR x1 r := by
  rw [val_main_v8_apply, Ideal.hostUnary_rsqrt_def, rowsum_eq]
  rfl

/-- The normalised A + I: the row's degree factor times the entry, times the column's degree factor. -/
private theorem norm_apply (x1 : FVec Ideal S8192x8192 .f32) (r c : Fin 8192) :
    val_main_v14 (F := Ideal) x1 (ix2 r c) = (degR x1 r * (x1 (ix2 r c) + eye r c)) * degR x1 c := by
  have e1 : idx_main_v9 (idx_main_v10 (ix2 r c)) = ix1 r :=
    funext fun a => Fin.ext (by match a with | ⟨0, _⟩ => rfl)
  have e2 : idx_main_v12 (idx_main_v13 (ix2 r c)) = ix1 c :=
    funext fun a => Fin.ext (by match a with | ⟨0, _⟩ => rfl)
  rw [val_main_v14_apply, val_main_v11_apply, val_main_v10_apply, val_main_v9_apply, val_main_v13_apply,
    val_main_v12_apply, val_main_v6_apply, e1, e2, deg_apply, deg_apply, eye_apply, Ideal.mulf_def,
    Ideal.mulf_def, Ideal.addf_def]

/-- S = X W, one entry, as the host's contraction computes it. -/
private theorem support_apply (x0 : FVec Ideal S8192x256 .f32) (x2 : FVec Ideal S256x256 .f32)
    (c : Fin 8192) (f : Fin 256) :
    val_main_v15 (F := Ideal) x0 x2 (ix2 c f) = support x0 x2 c f := by
  rw [val_main_v15_apply]
  unfold support
  refine Finset.sum_congr rfl fun k _ => ?_
  have el : lidx_main_v15 (ix2 c f) k = ix2 c k :=
    funext fun a => Fin.ext (by match a with | ⟨0, _⟩ => rfl | ⟨1, _⟩ => rfl)
  have er : ridx_main_v15 (ix2 c f) k = ix2 k f :=
    funext fun a => Fin.ext (by match a with | ⟨0, _⟩ => rfl | ⟨1, _⟩ => rfl)
  rw [el, er]

/-- The bias broadcast along the rows reads it at the feature. -/
private theorem bias_apply (x3 : FVec Ideal S256 .f32) (r : Fin 8192) (f : Fin 256) :
    val_main_v18 (F := Ideal) x3 (ix2 r f) = x3 (ix1 f) := by
  have e : idx_main_v17 (idx_main_v18 (ix2 r f)) = ix1 f :=
    funext fun a => Fin.ext (by match a with | ⟨0, _⟩ => rfl)
  rw [val_main_v18_apply, val_main_v17_apply, e]

/-- The reference's result at row r and feature f is the specification's `outR`. -/
theorem result_eq (x0 : FVec Ideal S8192x256 .f32) (x1 : FVec Ideal S8192x8192 .f32)
    (x2 : FVec Ideal S256x256 .f32) (x3 : FVec Ideal S256 .f32) (r : Fin 8192) (f : Fin 256) :
    val_main_v19 (F := Ideal) x0 x1 x2 x3 (ix2 r f) = outR x0 x1 x2 x3 r f := by
  rw [val_main_v19_apply, Ideal.addf_def, val_main_v16_apply, bias_apply]
  unfold outR
  refine congrArg (· + x3 (ix1 f)) (Finset.sum_congr rfl fun c _ => ?_)
  have el : lidx_main_v16 (ix2 r f) c = ix2 r c :=
    funext fun a => Fin.ext (by match a with | ⟨0, _⟩ => rfl | ⟨1, _⟩ => rfl)
  have er : ridx_main_v16 (ix2 r f) c = ix2 c f :=
    funext fun a => Fin.ext (by match a with | ⟨0, _⟩ => rfl | ⟨1, _⟩ => rfl)
  rw [el, er, norm_apply, support_apply]

end Cert.ReferenceIdeal.RefVal

end
-- ==== Proof.PreDecode.lean ====
/-
  What the precondition says, decoded: every entry of the four arguments is a finite number, and every
  row sum of A + I is positive (the domain of the reference's inverse square root). The printed predicate
  is a conjunction of five all-reductions; each is opened to its elements: |x| < +∞ on the extended reals
  says x is neither infinity, and the fifth compares the reference's own row sum with zero.
-/
import proofs.«116911_j17403207483981_1_alg».proof.Pre_finite_inputs
import proofs.«116911_j17403207483981_1_alg».proof.Proof.Gen.Pre_finite_inputs
import proofs.«116911_j17403207483981_1_alg».proof.Proof.RefVal
import proofs.«116911_j17403207483981_1_alg».proof.Proof.Spec
import Idealize.ShloMosaic.Lib.ValueIdx
import Idealize.ShloMosaic.Lib.ReduceAll
import Idealize.ShloMosaic.PureOps.Ideal.Laws

noncomputable section

open scoped BigOperators

namespace Cert.PreDecode

open Idealize.ShloMosaic Idealize.ShloMosaic.ValueIdx Cert.GcnSpec

/-- The result of an all-reduction has a single index. -/
private instance : Subsingleton Cert.Pre_finite_inputs.S_.Idx := ⟨fun a b => funext fun d => d.elim0⟩

/-- The word 0x7F800000 denotes +∞. -/
private theorem top_f32 : Ideal.ofBits .f32 0x7F800000#32 = ⊤ := by simp [Ideal.ofBits, Ideal.ieee]

/-- |x| < +∞ on the extended reals, with |x| = max x (-x): x is neither +∞ nor -∞, since at each of the two
    the maximum is +∞ itself. -/
private theorem finite_of_abs_lt (x : EReal)
    (h : Ideal.cmp .olt (max x (-x)) (Ideal.ofBits .f32 0x7F800000#32) = 1#1) : x ≠ ⊤ ∧ x ≠ ⊥ := by
  rw [top_f32] at h
  constructor
  · rintro rfl
    revert h
    simp [Ideal.cmp]
  · rintro rfl
    revert h
    simp [Ideal.cmp]

/-- A comparison "greater than" whose bit is set: the order relation holds. -/
private theorem lt_of_cmp_ogt (a c : EReal) (h : Ideal.cmp .ogt a c = 1#1) : c < a := by
  unfold Ideal.cmp at h
  by_contra hn
  simp [hn] at h

/-- The elementwise "and" of two bit arrays, read at an index. -/
private theorem andi_apply {s : Shape} {n : Nat} (p q : IVec s n) (i : s.Idx) :
    andi p q i = IntOp.andi (p i) (q i) := rfl

/-- From the printed precondition at the ideal instance: finiteness of every entry, and positivity of
    every row sum of A + I. -/
theorem of_pre [Cert.Pre_finite_inputs.Facts]
    (x : FVec Ideal Cert.Pre_finite_inputs.S8192x256 .f32) (adj : FVec Ideal Cert.Pre_finite_inputs.S8192x8192 .f32)
    (w : FVec Ideal Cert.Pre_finite_inputs.S256x256 .f32) (b : FVec Ideal Cert.Pre_finite_inputs.S256 .f32)
    (h : Cert.Pre_finite_inputs.fn (F := Ideal) x adj w b = fun _ => 1#1) :
    (∀ i, (x i : EReal) ≠ ⊤ ∧ (x i : EReal) ≠ ⊥) ∧ (∀ i, (adj i : EReal) ≠ ⊤ ∧ (adj i : EReal) ≠ ⊥)
      ∧ (∀ i, (w i : EReal) ≠ ⊤ ∧ (w i : EReal) ≠ ⊥) ∧ (∀ i, (b i : EReal) ≠ ⊤ ∧ (b i : EReal) ≠ ⊥)
      ∧ ∀ r : Fin 8192, (0 : EReal) < ∑ c : Fin 8192, ((adj (ix2 r c) : EReal) + eye r c) := by
  -- the predicate's one bit, as the conjunction of its five all-reductions
  have h0 := congrFun h ValueIdx.ix0
  unfold Cert.Pre_finite_inputs.fn Cert.Pre_finite_inputs.fn_part1 at h0
  dsimp only at h0
  simp only [andi_apply, IntOp.andi_eq_one] at h0
  obtain ⟨⟨⟨⟨hx, hadj⟩, hw⟩, hb⟩, hrow⟩ := h0
  refine ⟨fun i => ?_, fun i => ?_, fun i => ?_, fun i => ?_, fun r => ?_⟩
  -- each of the first four says |entry| < +∞ at every index
  · exact finite_of_abs_lt (x i) (Host.reduce_andi_all _ _ _ _ _ hx i)
  · exact finite_of_abs_lt (adj i) (Host.reduce_andi_all _ _ _ _ _ hadj i)
  · exact finite_of_abs_lt (w i) (Host.reduce_andi_all _ _ _ _ _ hw i)
  · exact finite_of_abs_lt (b i) (Host.reduce_andi_all _ _ _ _ _ hb i)
  -- the fifth compares, at every row, the reference's own row sum of A + I with zero
  · have hr := Host.reduce_andi_all _ _ _ _ _ hrow (ix1 r)
    change Ideal.cmp .ogt (Cert.ReferenceIdeal.Read.val_main_v7 (F := Ideal) adj (ix1 r))
      (Ideal.ofBits .f32 0x00000000#32) = 1#1 at hr
    rw [Cert.ReferenceIdeal.RefVal.rowsum_eq, Ideal.ofBits_zero_f32] at hr
    exact lt_of_cmp_ogt _ _ hr

end Cert.PreDecode

end
-- ==== Proof.lean ====
/-
  The certificate of one graph-convolution layer, out = D^(-1/2) (A + I) D^(-1/2) (X W) + b, computed by a Pallas
  kernel of three regions against its jnp reference, over the extended reals.

  The kernel never forms A + I. Region 0 takes d_r = ((Σ_c A_rc) + 1)^(-1/2); region 1 takes S = X W; region 2
  accumulates, column tile by column tile, the contraction of (d_r A_rc) d_c with S, adds the identity's share
  (d_r d_r) S_r as a diagonal term on the tile where row and column tiles meet, and adds the bias when it writes a
  row tile out. The reference forms A + I, takes d_r = (Σ_c (A + I)_rc)^(-1/2) and contracts (d_r (A + I)_rc) d_c
  with S. The two are one function of the arguments by distributing (A_rc + δ_rc) over the product, which on the
  extended reals needs d_r to be a real number: it is one exactly when the row sum of A + I is positive, the domain
  of the reference's own inverse square root, which the precondition states beside the finiteness of the entries.

  The frames: each kernel program runs as region, region, two host operations, region; between items the core's
  unscoped buffers are held at contents folded from the launch memory, and no item writes an argument. The
  reference is a straight line of host operations. The ideal pass rewrote nothing, so `preserves` asks nothing.
-/
import proofs.«116911_j17403207483981_1_alg».proof.Defs
import proofs.«116911_j17403207483981_1_alg».proof.Proof.Gen.Kernel
import proofs.«116911_j17403207483981_1_alg».proof.Proof.Gen.KernelIdeal
import proofs.«116911_j17403207483981_1_alg».proof.Proof.Gen.ReferenceIdeal
import proofs.«116911_j17403207483981_1_alg».proof.Proof.Gen.Pre_finite_inputs
import proofs.«116911_j17403207483981_1_alg».proof.Proof.Gen.ReferenceIdeal.Run
import proofs.«116911_j17403207483981_1_alg».proof.Proof.Gen.ReferenceIdeal.Read
import proofs.«116911_j17403207483981_1_alg».proof.Proof.K.Run
import proofs.«116911_j17403207483981_1_alg».proof.Proof.KI.Run
import proofs.«116911_j17403207483981_1_alg».proof.Proof.KI.Final
import proofs.«116911_j17403207483981_1_alg».proof.Proof.RefVal
import proofs.«116911_j17403207483981_1_alg».proof.Proof.PreDecode
import proofs.«116911_j17403207483981_1_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the same result array: the kernel's is `outK` of the arguments, the reference's `outR` of
    arguments that agree, and under the precondition the two are equal entry by entry. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v4),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  funext i
  obtain ⟨r, f, rfl⟩ : ∃ (r : Fin 8192) (f : Fin 256), i = ix2 r f := ⟨i 0, i 1, eq_ix2 i⟩
  obtain ⟨hx, hadj, hw, hb, hpos⟩ := Cert.PreDecode.of_pre _ _ _ _ (hpre c)
  refine (Cert.ReferenceIdeal.RefVal.result_eq _ _ _ _ r f).trans ?_
  refine Eq.trans ?_ (Cert.KernelIdeal.Hand.final m ρ c r f).symm
  exact (Cert.GcnSpec.outK_eq_outR _ _ _ _ hx hadj hw hb hpos r f).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
